-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S2048x2048 : Shape := ⟨2, ![2048, 2048]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_arg11 : FVec F S1024 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  main_v58

def fn_part2 {F : FTy → Type} [FloatOps F] (main_arg7 : FVec F S1024 .f32) (main_arg8 : FVec F S1024x1024 .f32) (main_arg9 : FVec F S1024 .f32) (main_arg10 : FVec F S1024x1024 .f32) (main_arg11 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_v48 main_v49 main_v50

def fn_part1 {F : FTy → Type} [FloatOps F] (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) (main_arg10 : FVec F S1024x1024 .f32) (main_arg11 : FVec F S1024 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S2x2048x1024 .f32) (main_arg1 : FVec F S2x2048x1024 .f32) (main_arg2 : FVec F S2x2048x1024 .f32) (main_arg3 : FVec F S2048x2048 .f32) (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) (main_arg10 : FVec F S1024x1024 .f32) (main_arg11 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2x2048x1024 .f32 := Host.absf main_arg1
  let main_cst_0 : FVec F S_ .f32 := constant S_ .f32 0x7F800000#32
  let main_v5 : FVec F S2x2048x1024 .f32 := broadcastInDim S2x2048x1024 ![] bcast_S_S2x2048x1024 main_cst_0
  let main_v6 : IVec S2x2048x1024 1 := cmpf .olt main_v4 main_v5
  let main_c_1 : IVec S_ 1 := constantI S_ 1 1#1
  let main_v7 : IVec S_ 1 := (fun x v => Host.reduce IntOp.andi x v reducesTo_S2x2048x1024_S_d0_1_2 h_S_) main_v6 main_c_1
  let main_v8 : IVec S_ 1 := andi main_v3 main_v7
  let main_v9 : FVec F S2x2048x1024 .f32 := Host.absf main_arg2
  let main_cst_2 : FVec F S_ .f32 := constant S_ .f32 0x7F800000#32
  let main_v10 : FVec F S2x2048x1024 .f32 := broadcastInDim S2x2048x1024 ![] bcast_S_S2x2048x1024 main_cst_2
  let main_v11 : IVec S2x2048x1024 1 := cmpf .olt main_v9 main_v10
  let main_c_3 : IVec S_ 1 := constantI S_ 1 1#1
  let main_v12 : IVec S_ 1 := (fun x v => Host.reduce IntOp.andi x v reducesTo_S2x2048x1024_S_d0_1_2 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_arg9 main_arg10 main_arg11 main_v13 main_v16
-- ==== Kernel.lean ====
abbrev S2x2048x1024 : Shape := ⟨3, ![2, 2048, 1024]⟩
abbrev S2048x2048 : Shape := ⟨2, ![2048, 2048]⟩
abbrev S1024x1024 : Shape := ⟨2, ![1024, 1024]⟩
abbrev S1024 : Shape := ⟨1, ![1024]⟩
abbrev S4096x1024 : Shape := ⟨2, ![4096, 1024]⟩
abbrev S512x1024 : Shape := ⟨2, ![512, 1024]⟩
abbrev S1x1024 : Shape := ⟨2, ![1, 1024]⟩
abbrev S2x2048x16x64 : Shape := ⟨4, ![2, 2048, 16, 64]⟩
abbrev S2x16x2048x64 : Shape := ⟨4, ![2, 16, 2048, 64]⟩
abbrev S32x2048x64 : Shape := ⟨3, ![32, 2048, 64]⟩
abbrev S1x512x64 : Shape := ⟨3, ![1, 512, 64]⟩
abbrev S1x2048x64 : Shape := ⟨3, ![1, 2048, 64]⟩
abbrev S512x2048 : Shape := ⟨2, ![512, 2048]⟩
abbrev S512x64 : Shape := ⟨2, ![512, 64]⟩
abbrev S2048x64 : Shape := ⟨2, ![2048, 64]⟩

abbrev nBuf : Space → Nat
  | .hbm => 42
  | .vmem => 34
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S2048x2048, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S1024x1024, .f32⟩
  | .hbm, ⟨16, _⟩ => ⟨S1024x1024, .bf16⟩
  | .hbm, ⟨17, _⟩ => ⟨S4096x1024, .bf16⟩
  | .hbm, ⟨18, _⟩ => ⟨S1024x1024, .f32⟩
  | .hbm, ⟨19, _⟩ => ⟨S1024x1024, .bf16⟩
  | .hbm, ⟨20, _⟩ => ⟨S4096x1024, .bf16⟩
  | .hbm, ⟨21, _⟩ => ⟨S1024x1024, .f32⟩
  | .hbm, ⟨22, _⟩ => ⟨S1024x1024, .bf16⟩
  | .hbm, ⟨23, _⟩ => ⟨S4096x1024, .bf16⟩
  | .hbm, ⟨24, _⟩ => ⟨S2x2048x16x64, .bf16⟩
  | .hbm, ⟨25, _⟩ => ⟨S2x16x2048x64, .bf16⟩
  | .hbm, ⟨26, _⟩ => ⟨S32x2048x64, .bf16⟩
  | .hbm, ⟨27, _⟩ => ⟨S2x2048x16x64, .bf16⟩
  | .hbm, ⟨28, _⟩ => ⟨S2x16x2048x64, .bf16⟩
  | .hbm, ⟨29, _⟩ => ⟨S32x2048x64, .bf16⟩
  | .hbm, ⟨30, _⟩ => ⟨S2x2048x16x64, .bf16⟩
  | .hbm, ⟨31, _⟩ => ⟨S2x16x2048x64, .bf16⟩
  | .hbm, ⟨32, _⟩ => ⟨S32x2048x64, .bf16⟩
  | .hbm, ⟨33, _⟩ => ⟨S2048x2048, .f32⟩
  | .hbm, ⟨34, _⟩ => ⟨S32x2048x64, .bf16⟩
  | .hbm, ⟨35, _⟩ => ⟨S2x16x2048x64, .bf16⟩
  | .hbm, ⟨36, _⟩ => ⟨S2x2048x16x64, .bf16⟩
  | .hbm, ⟨37, _⟩ => ⟨S4096x1024, .bf16⟩
  | .hbm, ⟨38, _⟩ => ⟨S1024x1024, .f32⟩
  | .hbm, ⟨39, _⟩ => ⟨S1024x1024, .bf16⟩
  | .hbm, ⟨40, _⟩ => ⟨S4096x1024, .f32⟩
  | .hbm, ⟨41, _⟩ => ⟨S2x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S1024x1024, .bf16⟩
  | .local _ .vmem, ⟨15, _⟩ => ⟨S1024, .f32⟩
  | .local _ .vmem, ⟨16, _⟩ => ⟨S512x1024, .bf16⟩
  | .local _ .vmem, ⟨17, _⟩ => ⟨S512x1024, .bf16⟩
  | .local _ .vmem, ⟨18, _⟩ => ⟨S1x512x64, .bf16⟩
  | .local _ .vmem, ⟨19, _⟩ => ⟨S1x512x64, .bf16⟩
  | .local _ .vmem, ⟨20, _⟩ => ⟨S1x2048x64, .bf16⟩
  | .local _ .vmem, ⟨21, _⟩ => ⟨S1x2048x64, .bf16⟩
  | .local _ .vmem, ⟨22, _⟩ => ⟨S1x2048x64, .bf16⟩
  | .local _ .vmem, ⟨23, _⟩ => ⟨S1x2048x64, .bf16⟩
  | .local _ .vmem, ⟨24, _⟩ => ⟨S512x2048, .f32⟩
  | .local _ .vmem, ⟨25, _⟩ => ⟨S512x2048, .f32⟩
  | .local _ .vmem, ⟨26, _⟩ => ⟨S1x512x64, .bf16⟩
  | .local _ .vmem, ⟨27, _⟩ => ⟨S1x512x64, .bf16⟩
  | .local _ .vmem, ⟨28, _⟩ => ⟨S512x1024, .bf16⟩
  | .local _ .vmem, ⟨29, _⟩ => ⟨S512x1024, .bf16⟩
  | .local _ .vmem, ⟨30, _⟩ => ⟨S1024x1024, .bf16⟩
  | .local _ .vmem, ⟨31, _⟩ => ⟨S1024, .f32⟩
  | .local _ .vmem, ⟨32, _⟩ => ⟨S512x1024, .f32⟩
  | .local _ .vmem, ⟨33, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem3_1 : DmaSem sig := 33

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![4, 32], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage3_0 : Fin 2 → Memref sig .tc .vmem S1x512x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x2048x64 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1x2048x64 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S512x2048 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 2 → Memref sig .tc .vmem S1x512x64 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1024x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S512x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  shapeCasts_S2x2048x1024_S4096x1024 : S2x2048x1024.ShapeCasts S4096x1024
  transposes_S1024x1024_S1024x1024_1_0 : S1024x1024.Transposes [1, 0] S1024x1024
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  shapeCasts_S4096x1024_S2x2048x16x64 : S4096x1024.ShapeCasts S2x2048x16x64
  transposes_S2x2048x16x64_S2x16x2048x64_0_2_1_3 : S2x2048x16x64.Transposes [0, 2, 1, 3] S2x16x2048x64
  shapeCasts_S2x16x2048x64_S32x2048x64 : S2x16x2048x64.ShapeCasts S32x2048x64
  transposes_S2048x2048_S2048x2048_1_0 : S2048x2048.Transposes [1, 0] S2048x2048
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  shapeCasts_S512x64_S1x512x64 : S512x64.ShapeCasts S1x512x64
  packedbf16_S1x512x64_S1x512x64_0_0_0 : (Rect.unit (s := S1x512x64) ![0, 0, 0] S1x512x64.size inb_S1x512x64_S1x512x64_0_0_0).PackedRows (EltTy.packing .bf16)
  shapeCasts_S32x2048x64_S2x16x2048x64 : S32x2048x64.ShapeCasts S2x16x2048x64
  transposes_S2x16x2048x64_S2x2048x16x64_0_2_1_3 : S2x16x2048x64.Transposes [0, 2, 1, 3] S2x2048x16x64
  shapeCasts_S2x2048x16x64_S4096x1024 : S2x2048x16x64.ShapeCasts S4096x1024
  shapeCasts_S4096x1024_S2x2048x1024 : S4096x1024.ShapeCasts S2x2048x1024
  dot_S512x1024_S1024x1024_S512x1024_1_0_0_1_n_n_wf : DotDims.WF S512x1024 S1024x1024 S512x1024 [1] [0] [0] [1] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x1024.size a
  hwx0_3 : ∀ i : grid0.Coords, EltTy.bits .bf16 = 32 ∨ (Rect.block (s := S4096x1024) S512x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x1024.size a
  hwx1_0 : ∀ i : grid1.Coords, EltTy.bits .f32 = 32 ∨ (Rect.block (s := S4096x1024) S512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S1024.size a
  hwx1_2 : ∀ i : grid1.Coords, EltTy.bits .f32 = 32 ∨ (Rect.block (s := S1024) S1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S4096x1024.size a
  hwx1_3 : ∀ i : grid1.Coords, EltTy.bits .bf16 = 32 ∨ (Rect.block (s := S4096x1024) S512x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x1024.size a
  hwx2_0 : ∀ i : grid2.Coords, EltTy.bits .f32 = 32 ∨ (Rect.block (s := S4096x1024) S512x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024.size a ≤ S1024.size a
  hwx2_2 : ∀ i : grid2.Coords, EltTy.bits .f32 = 32 ∨ (Rect.block (s := S1024) S1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S4096x1024.size a
  hwx2_3 : ∀ i : grid2.Coords, EltTy.bits .bf16 = 32 ∨ (Rect.block (s := S4096x1024) S512x1024.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x512x64.size a ≤ S32x2048x64.size a
  hwx3_0 : ∀ i : grid3.Coords, EltTy.bits .bf16 = 32 ∨ (Rect.block (s := S32x2048x64) S1x512x64.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x2048x64.size a ≤ S32x2048x64.size a
  hwx3_1 : ∀ i : grid3.Coords, EltTy.bits .bf16 = 32 ∨ (Rect.block (s := S32x2048x64) S1x2048x64.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x2048x64.size a ≤ S32x2048x64.size a
  hwx3_2 : ∀ i : grid3.Coords, EltTy.bits .bf16 = 32 ∨ (Rect.block (s := S32x2048x64) S1x2048x64.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S512x2048.size a ≤ S2048x2048.size a
  hwx3_3 : ∀ i : grid3.Coords, EltTy.bits .f32 = 32 ∨ (Rect.block (s := S2048x2048) S512x2048.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x512x64.size a ≤ S32x2048x64.size a
  hwx3_4 : ∀ i : grid3.Coords, EltTy.bits .bf16 = 32 ∨ (Rect.block (s := S32x2048x64) S1x512x64.size (cc3_transform_4 i) (hinb3_4 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x1024.size a ≤ S4096x1024.size a
  hwx4_0 : ∀ i : grid4.Coords, EltTy.bits .bf16 = 32 ∨ (Rect.block (s := S4096x1024) S512x1024.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1024x1024.size a ≤ S1024x1024.size a
  hwx4_1 : ∀ i : grid4.Coords, EltTy.bits .bf16 = 32 ∨ (Rect.block (s := S1024x1024) S1024x1024.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1024.size a ≤ S1024.size a
  hwx4_2 : ∀ i : grid4.Coords, EltTy.bits .f32 = 32 ∨ (Rect.block (s := S1024) S1024.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S512x1024.size a ≤ S4096x1024.size a
  hwx4_3 : ∀ i : grid4.Coords, EltTy.bits .f32 = 32 ∨ (Rect.block (s := S4096x1024) S512x1024.size (cc4_transform_3 i) (hinb4_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v2) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v11) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v14) S1x512x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v17) S1x2048x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v20) S1x2048x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v21) S512x2048.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v22) S1x512x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v25) S512x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v27) S1024x1024.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg11) S1024.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v28) S512x1024.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S2x2048x1024 : Shape := ⟨3, ![2, 2048, 1024]⟩
abbrev S2048x2048 : Shape := ⟨2, ![2048, 2048]⟩
abbrev S1024x1024 : Shape := ⟨2, ![1024, 1024]⟩
abbrev S1024 : Shape := ⟨1, ![1024]⟩
abbrev S1x1x1024 : Shape := ⟨3, ![1, 1, 1024]⟩
abbrev S2x2048x16x64 : Shape := ⟨4, ![2, 2048, 16, 64]⟩
abbrev S2x16x2048x64 : Shape := ⟨4, ![2, 16, 2048, 64]⟩
abbrev S_ : Shape := ⟨0, ![]⟩
abbrev S2x16x2048x2048 : Shape := ⟨4, ![2, 16, 2048, 2048]⟩
abbrev S1x1x2048x2048 : Shape := ⟨4, ![1, 1, 2048, 2048]⟩

abbrev nBuf : Space → Nat
  | .hbm => 48
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S2048x2048, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S2x2048x1024, .f32⟩
  | .hbm, ⟨13, _⟩ => ⟨S1x1x1024, .f32⟩
  | .hbm, ⟨14, _⟩ => ⟨S2x2048x1024, .f32⟩
  | .hbm, ⟨15, _⟩ => ⟨S2x2048x1024, .f32⟩
  | .hbm, ⟨16, _⟩ => ⟨S2x2048x16x64, .f32⟩
  | .hbm, ⟨17, _⟩ => ⟨S2x16x2048x64, .f32⟩
  | .hbm, ⟨18, _⟩ => ⟨S2x2048x1024, .f32⟩
  | .hbm, ⟨19, _⟩ => ⟨S1x1x1024, .f32⟩
  | .hbm, ⟨20, _⟩ => ⟨S2x2048x1024, .f32⟩
  | .hbm, ⟨21, _⟩ => ⟨S2x2048x1024, .f32⟩
  | .hbm, ⟨22, _⟩ => ⟨S2x2048x16x64, .f32⟩
  | .hbm, ⟨23, _⟩ => ⟨S2x16x2048x64, .f32⟩
  | .hbm, ⟨24, _⟩ => ⟨S2x2048x1024, .f32⟩
  | .hbm, ⟨25, _⟩ => ⟨S1x1x1024, .f32⟩
  | .hbm, ⟨26, _⟩ => ⟨S2x2048x1024, .f32⟩
  | .hbm, ⟨27, _⟩ => ⟨S2x2048x1024, .f32⟩
  | .hbm, ⟨28, _⟩ => ⟨S2x2048x16x64, .f32⟩
  | .hbm, ⟨29, _⟩ => ⟨S2x16x2048x64, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S2x16x2048x2048, .f32⟩
  | .hbm, ⟨35, _⟩ => ⟨S2x16x2048x2048, .f32⟩
  | .hbm, ⟨36, _⟩ => ⟨S2x16x2048x2048, .f32⟩
  | .hbm, ⟨37, _⟩ => ⟨S2048x2048, .f32⟩
  | .hbm, ⟨38, _⟩ => ⟨S1x1x2048x2048, .f32⟩
  | .hbm, ⟨39, _⟩ => ⟨S2x16x2048x2048, .f32⟩
  | .hbm, ⟨40, _⟩ => ⟨S2x16x2048x2048, .f32⟩
  | .hbm, ⟨41, _⟩ => ⟨S2x16x2048x64, .f32⟩
  | .hbm, ⟨42, _⟩ => ⟨S2x2048x16x64, .f32⟩
  | .hbm, ⟨43, _⟩ => ⟨S2x2048x1024, .f32⟩
  | .hbm, ⟨44, _⟩ => ⟨S2x2048x1024, .f32⟩
  | .hbm, ⟨45, _⟩ => ⟨S1x1x1024, .f32⟩
  | .hbm, ⟨46, _⟩ => ⟨S2x2048x1024, .f32⟩
  | .hbm, ⟨47, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst : Ref sig .tc := ⟨.hbm, 30, rfl⟩
abbrev main_v18 : Ref sig .tc := ⟨.hbm, 31, rfl⟩
abbrev main_cst_0 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  transposes_S2048x2048_S2048x2048_1_0 : S2048x2048.Transposes [1, 0] S2048x2048
  bcast_S2048x2048_S1x1x2048x2048_2_3 : S2048x2048.BroadcastsInDim S1x1x2048x2048 (![2, 3] : Fin 2 → Fin S1x1x2048x2048.rank)
  bcast_S1x1x2048x2048_S2x16x2048x2048_0_1_2_3 : S1x1x2048x2048.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S1024x1024_S2x2048x1024_2_1_01_0_n_n_wf : DotDims.WF S2x2048x1024 S1024x1024 S2x2048x1024 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.Spec.lean ====
/-
  The two functions the five kernel regions compute, over the extended reals, index by index.

  A LINEAR LAYER on 4096 rows of width 1024: row r of the result, at column e, is the sum over k of X[r,k] · Wt[k,e], plus
  the bias b[e]. (Wt is the weight already transposed: Wt[k,e] = W[e,k].)

  MASKED, UNNORMALISED ATTENTION over 32 (batch, head) groups, 2048 positions and head width 64: at group g, query q and
  output column d the result is  Σ_k ((Σ_j Q[g,q,j] · K[g,k,j]) · 1/8 · M[q,k]) · V[g,k,d]  — the scores scaled by
  1/√64 = 1/8 and multiplied entry by entry with the mask M; there is no softmax.
-/
import Idealize.ShloMosaic.PureOps.Ideal
import Idealize.ShloMosaic.Lib.ValueIdx

noncomputable section

open scoped BigOperators

namespace Cert.Spec

open Idealize.ShloMosaic Idealize.ShloMosaic.ValueIdx

/-- 4096 rows of width 1024. -/
abbrev Rows : Shape := ⟨2, ![4096, 1024]⟩
/-- A square weight. -/
abbrev Sq : Shape := ⟨2, ![1024, 1024]⟩
/-- A bias. -/
abbrev Bias : Shape := ⟨1, ![1024]⟩
/-- 32 groups of 2048 positions of width 64. -/
abbrev Heads : Shape := ⟨3, ![32, 2048, 64]⟩
/-- The mask, query position by key position. -/
abbrev Mask : Shape := ⟨2, ![2048, 2048]⟩

/-- One entry of the linear layer: Σ_k X[r,k] · Wt[k,e] + b[e]. -/
def linAt (X : Rows.Idx → EReal) (Wt : Sq.Idx → EReal) (b : Bias.Idx → EReal) (r : Fin 4096) (e : Fin 1024) : EReal :=
  (∑ k : Fin 1024, X (ix2 r k) * Wt (ix2 k e)) + b (ix1 e)

/-- The linear layer as a whole array. -/
def lin (X : Rows.Idx → EReal) (Wt : Sq.Idx → EReal) (b : Bias.Idx → EReal) : Rows.Idx → EReal :=
  fun i => linAt X Wt b (i 0) (i 1)

/-- The score scale 1/8, as the binary32 word both programs carry. -/
def eighth : EReal := Ideal.ofBits .f32 0x3E000000#32

/-- One entry of the attention: Σ_k ((Σ_j Q[g,q,j] · K[g,k,j]) · 1/8 · M[q,k]) · V[g,k,d]. -/
def attnAt (Q K V : Heads.Idx → EReal) (M : Mask.Idx → EReal) (g : Fin 32) (q : Fin 2048) (d : Fin 64) : EReal :=
  ∑ k : Fin 2048, (((∑ j : Fin 64, Q (ix3 g q j) * K (ix3 g k j)) * eighth) * M (ix2 q k)) * V (ix3 g k d)

/-- The attention as a whole array. -/
def attn (Q K V : Heads.Idx → EReal) (M : Mask.Idx → EReal) : Heads.Idx → EReal :=
  fun i => attnAt Q K V M (i 0) (i 1) (i 2)

end Cert.Spec

end
-- ==== Proof.KTerm.lean ====
/-
  The kernel program's result as ONE function of its twelve argument arrays over the extended reals: the three
  projections (each a linear layer on the 4096 flattened rows, the weight transposed), split into 32 (batch, head) groups,
  the masked attention, the groups merged back into rows, the output projection, and the rows unflattened.
-/
import proofs.«112309_j91336774517485_1_alg».proof.Proof.Gen.KernelIdeal
import proofs.«112309_j91336774517485_1_alg».proof.Proof.Spec

noncomputable section

namespace Cert.KernelIdeal.Term

open Cert.KernelIdeal Cert.KernelIdeal.Gen
open Idealize.ShloMosaic

/-- A weight as the regions read it: transposed, then narrowed (the identity over the extended reals). -/
def wt (W : FVec Ideal S1024x1024 .f32) : FVec Ideal S1024x1024 .bf16 :=
  truncf .bf16 (transpose S1024x1024 [1, 0] W transposes_S1024x1024_S1024x1024_1_0) bitsLt_bf16_f32
/-- [2, 2048, 1024] flattened to 4096 rows. -/
def rows (x : FVec Ideal S2x2048x1024 .f32) : FVec Ideal S4096x1024 .f32 :=
  shapeCast S4096x1024 x shapeCasts_S2x2048x1024_S4096x1024
/-- Rows split into heads: [4096, 1024] → [2, 2048, 16, 64] → [2, 16, 2048, 64] → [32, 2048, 64]. -/
def heads (y : FVec Ideal S4096x1024 .bf16) : FVec Ideal S32x2048x64 .bf16 :=
  shapeCast S32x2048x64 (transpose S2x16x2048x64 [0, 2, 1, 3] (shapeCast S2x2048x16x64 y shapeCasts_S4096x1024_S2x2048x16x64)
    transposes_S2x2048x16x64_S2x16x2048x64_0_2_1_3) shapeCasts_S2x16x2048x64_S32x2048x64
/-- Heads merged back into rows: [32, 2048, 64] → [2, 16, 2048, 64] → [2, 2048, 16, 64] → [4096, 1024]. -/
def merge (o : FVec Ideal S32x2048x64 .bf16) : FVec Ideal S4096x1024 .bf16 :=
  shapeCast S4096x1024 (transpose S2x2048x16x64 [0, 2, 1, 3] (shapeCast S2x16x2048x64 o shapeCasts_S32x2048x64_S2x16x2048x64)
    transposes_S2x16x2048x64_S2x2048x16x64_0_2_1_3) shapeCasts_S2x2048x16x64_S4096x1024
/-- The mask as the attention region reads it: transposed. -/
def maskT (A : FVec Ideal S2048x2048 .f32) : FVec Ideal S2048x2048 .f32 :=
  transpose S2048x2048 [1, 0] A transposes_S2048x2048_S2048x2048_1_0

/-- The whole program's result. -/
def kernelResult (q k v : FVec Ideal S2x2048x1024 .f32) (A : FVec Ideal S2048x2048 .f32)
    (Wq : FVec Ideal S1024x1024 .f32) (bq : FVec Ideal S1024 .f32) (Wk : FVec Ideal S1024x1024 .f32) (bk : FVec Ideal S1024 .f32)
    (Wv : FVec Ideal S1024x1024 .f32) (bv : FVec Ideal S1024 .f32) (Wo : FVec Ideal S1024x1024 .f32) (bo : FVec Ideal S1024 .f32) :
    FVec Ideal S2x2048x1024 .f32 :=
  shapeCast S2x2048x1024
    (Cert.Spec.lin
      (merge (Cert.Spec.attn (heads (Cert.Spec.lin (rows q) (wt Wq) bq)) (heads (Cert.Spec.lin (rows k) (wt Wk) bk))
        (heads (Cert.Spec.lin (rows v) (wt Wv) bv)) (maskT A)))
      (wt Wo) bo)
    shapeCasts_S4096x1024_S2x2048x1024

end Cert.KernelIdeal.Term

end
-- ==== Proof.ProjBridge.lean ====
import proofs.«112309_j91336774517485_1_alg».proof.Proof.Gen.ReferenceIdeal
import proofs.«112309_j91336774517485_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.Bridge

open Cert.ReferenceIdeal Cert.ReferenceIdeal.Gen
open Idealize.ShloMosaic Idealize.ShloMosaic.ValueIdx

/-- The reference's projection: x · Wᵀ + b over [2, 2048, 1024], as its host operations compute it. -/
def refLin (x : FVec Ideal S2x2048x1024 .f32) (W : FVec Ideal S1024x1024 .f32) (b : FVec Ideal S1024 .f32) : FVec Ideal S2x2048x1024 .f32 :=
  addf (Host.dotGeneral dot_S2x2048x1024_S1024x1024_S2x2048x1024_2_1_01_0_n_n none x W)
    (broadcastInDim S2x2048x1024 ![0, 1, 2] bcast_S1x1x1024_S2x2048x1024_0_1_2 (broadcastInDim S1x1x1024 ![2] bcast_S1024_S1x1x1024_2 b))

/-! ### The coordinates the projection's contraction reads

At an output index `i` and a contraction index `q`, the left operand is read at `(i 0, i 1, q)` and the right operand at
`(i 2, q)`: the free axes copy the output's coordinates, the contracted axis reads `q`. One lemma per axis. -/

theorem proj_lhs_0 (i : S2x2048x1024.Idx) (q : dot_S2x2048x1024_S1024x1024_S2x2048x1024_2_1_01_0_n_n.contr.Idx) :
    (dot_S2x2048x1024_S1024x1024_S2x2048x1024_2_1_01_0_n_n.lhsIdx i q 0).val = (i 0).val := by
  unfold DotDims.lhsIdx
  rw [dif_neg (show ¬(0 : Fin S2x2048x1024.rank) ∈ dot_S2x2048x1024_S1024x1024_S2x2048x1024_2_1_01_0_n_n.lhsBatch by decide), dif_pos (show (0 : Fin S2x2048x1024.rank) ∈ dot_S2x2048x1024_S1024x1024_S2x2048x1024_2_1_01_0_n_n.lhsNonContracting by decide)]
  rfl
theorem proj_lhs_1 (i : S2x2048x1024.Idx) (q : dot_S2x2048x1024_S1024x1024_S2x2048x1024_2_1_01_0_n_n.contr.Idx) :
    (dot_S2x2048x1024_S1024x1024_S2x2048x1024_2_1_01_0_n_n.lhsIdx i q 1).val = (i 1).val := by
  unfold DotDims.lhsIdx
  rw [dif_neg (show ¬(1 : Fin S2x2048x1024.rank) ∈ dot_S2x2048x1024_S1024x1024_S2x2048x1024_2_1_01_0_n_n.lhsBatch by decide), dif_pos (show (1 : Fin S2x2048x1024.rank) ∈ dot_S2x2048x1024_S1024x1024_S2x2048x1024_2_1_01_0_n_n.lhsNonContracting by decide)]
  rfl
theorem proj_lhs_2 (i : S2x2048x1024.Idx) (q : dot_S2x2048x1024_S1024x1024_S2x2048x1024_2_1_01_0_n_n.contr.Idx) :
    (dot_S2x2048x1024_S1024x1024_S2x2048x1024_2_1_01_0_n_n.lhsIdx i q 2).val = (q ⟨0, by decide⟩).val :=
  dot_S2x2048x1024_S1024x1024_S2x2048x1024_2_1_01_0_n_n.lhsIdx_val_of_single rfl i q
theorem proj_rhs_0 (i : S2x2048x1024.Idx) (q : dot_S2x2048x1024_S1024x1024_S2x2048x1024_2_1_01_0_n_n.contr.Idx) :
    (dot_S2x2048x1024_S1024x1024_S2x2048x1024_2_1_01_0_n_n.rhsIdx i q 0).val = (i 2).val := by
  unfold DotDims.rhsIdx
  rw [dif_neg (show ¬(0 : Fin S1024x1024.rank) ∈ dot_S2x2048x1024_S1024x1024_S2x2048x1024_2_1_01_0_n_n.rhsBatch by decide), dif_pos (show (0 : Fin S1024x1024.rank) ∈ dot_S2x2048x1024_S1024x1024_S2x2048x1024_2_1_01_0_n_n.rhsNonContracting by decide)]
  rfl
theorem proj_rhs_1 (i : S2x2048x1024.Idx) (q : dot_S2x2048x1024_S1024x1024_S2x2048x1024_2_1_01_0_n_n.contr.Idx) :
    (dot_S2x2048x1024_S1024x1024_S2x2048x1024_2_1_01_0_n_n.rhsIdx i q 1).val = (q ⟨0, by decide⟩).val :=
  dot_S2x2048x1024_S1024x1024_S2x2048x1024_2_1_01_0_n_n.rhsIdx_val_of_single rfl i q

/-- The reference's contraction at `(bb, s, e)`: Σ_k x[bb, s, k] · W[e, k]. -/
theorem refDot_apply (x : FVec Ideal S2x2048x1024 .f32) (W : FVec Ideal S1024x1024 .f32) (bb : Fin 2) (s : Fin 2048) (e : Fin 1024) :
    Host.dotGeneral (F := Ideal) dot_S2x2048x1024_S1024x1024_S2x2048x1024_2_1_01_0_n_n none x W (ix3 bb s e)
      = ∑ k : Fin 1024, x (ix3 bb s k) * W (ix2 e k) := by
  simp only [Host.dotGeneral]
  rw [Ideal.dotGeneral_apply, ← Equiv.sum_comp (ValueIdx.contrEquiv1 dot_S2x2048x1024_S1024x1024_S2x2048x1024_2_1_01_0_n_n 1024 rfl rfl).symm]
  refine Finset.sum_congr rfl fun k _ => ?_
  have hk := ValueIdx.contrEquiv1_symm_val dot_S2x2048x1024_S1024x1024_S2x2048x1024_2_1_01_0_n_n 1024 rfl rfl k
  have el : dot_S2x2048x1024_S1024x1024_S2x2048x1024_2_1_01_0_n_n.lhsIdx (ix3 bb s e) ((ValueIdx.contrEquiv1 dot_S2x2048x1024_S1024x1024_S2x2048x1024_2_1_01_0_n_n 1024 rfl rfl).symm k) = ix3 bb s k := funext fun a => Fin.ext (by
    match a with
    | ⟨0, _⟩ => exact proj_lhs_0 _ _
    | ⟨1, _⟩ => exact proj_lhs_1 _ _
    | ⟨2, _⟩ => exact (proj_lhs_2 _ _).trans hk)
  have er : dot_S2x2048x1024_S1024x1024_S2x2048x1024_2_1_01_0_n_n.rhsIdx (ix3 bb s e) ((ValueIdx.contrEquiv1 dot_S2x2048x1024_S1024x1024_S2x2048x1024_2_1_01_0_n_n 1024 rfl rfl).symm k) = ix2 e k := funext fun a => Fin.ext (by
    match a with
    | ⟨0, _⟩ => exact proj_rhs_0 _ _
    | ⟨1, _⟩ => exact (proj_rhs_1 _ _).trans hk)
  rw [el, er]

/-- The reference's bias, broadcast first to [1, 1, 1024] and then to [2, 2048, 1024], at `(bb, s, e)` is b[e]. -/
theorem refBias_apply (b : FVec Ideal S1024 .f32) (bb : Fin 2) (s : Fin 2048) (e : Fin 1024) :
    broadcastInDim S2x2048x1024 ![0, 1, 2] bcast_S1x1x1024_S2x2048x1024_0_1_2 (broadcastInDim S1x1x1024 ![2] bcast_S1024_S1x1x1024_2 b) (ix3 bb s e)
      = b (ix1 e) := by
  generalize hy : broadcastInDim S1x1x1024 ![2] bcast_S1024_S1x1x1024_2 b = y
  have h2 : broadcastInDim S2x2048x1024 ![0, 1, 2] bcast_S1x1x1024_S2x2048x1024_0_1_2 y (ix3 bb s e) = y (ix3 (0 : Fin 1) (0 : Fin 1) e) :=
    broadcastInDim_apply _ bcast_S1x1x1024_S2x2048x1024_0_1_2 y (ix3 bb s e) (ix3 (0 : Fin 1) (0 : Fin 1) e) (fun a => match a with
      | ⟨0, _⟩ => by show 0 = if (1 : Nat) = 1 then 0 else bb.val; rw [if_pos rfl]
      | ⟨1, _⟩ => by show 0 = if (1 : Nat) = 1 then 0 else s.val; rw [if_pos rfl]
      | ⟨2, _⟩ => by show e.val = if (1024 : Nat) = 1 then 0 else e.val; rw [if_neg (by decide)])
  rw [h2, ← hy]
  exact broadcastInDim_apply _ bcast_S1024_S1x1x1024_2 b (ix3 (0 : Fin 1) (0 : Fin 1) e) (ix1 e) (fun a => match a with
    | ⟨0, _⟩ => by show e.val = if (1024 : Nat) = 1 then 0 else e.val; rw [if_neg (by decide)])

/-- The reference's projection at `(bb, s, e)`: Σ_k x[bb, s, k] · W[e, k] + b[e]. -/
theorem refLin_apply (x : FVec Ideal S2x2048x1024 .f32) (W : FVec Ideal S1024x1024 .f32) (b : FVec Ideal S1024 .f32)
    (bb : Fin 2) (s : Fin 2048) (e : Fin 1024) :
    refLin x W b (ix3 bb s e) = (∑ k : Fin 1024, x (ix3 bb s k) * W (ix2 e k)) + b (ix1 e) := by
  unfold refLin
  rw [addf_apply, refDot_apply, refBias_apply]

/-- Row `r` of the flattened [4096, 1024] array at column `c` is the [2, 2048, 1024] array at `(r / 2048, r % 2048, c)`:
    both have row-major position `r · 1024 + c`. -/
theorem rows_apply {α : Type} (v : S2x2048x1024.Idx → α) (h1 : S2x2048x1024.ShapeCasts Cert.Spec.Rows) (r : Fin 4096) (c : Fin 1024) :
    shapeCast Cert.Spec.Rows v h1 (ix2 r c)
      = v (ix3 (⟨r.val / 2048, by omega⟩ : Fin 2) (⟨r.val % 2048, by omega⟩ : Fin 2048) c) := by
  refine shapeCast_apply v h1 (ix2 r c) _ ?_
  rw [Shape.rowMajor_val_three, Shape.rowMajor_val_two]
  show ((r.val / 2048) * 2048 + r.val % 2048) * 1024 + c.val = r.val * 1024 + c.val
  omega

/-- The transposed weight at `(k, e)` is the weight at `(e, k)`. -/
theorem wt_apply (W : FVec Ideal S1024x1024 .f32) (h2 : S1024x1024.Transposes [1, 0] Cert.Spec.Sq) (h3 : FTy.bits .bf16 < FTy.bits .f32)
    (k e : Fin 1024) :
    (truncf (F := Ideal) .bf16 (transpose Cert.Spec.Sq [1, 0] W h2) h3) (ix2 k e) = W (ix2 e k) := by
  rw [truncf_apply]
  exact transpose_apply [1, 0] W h2 (ix2 k e) (ix2 e k) (fun a => match a with
    | ⟨0, _⟩ => rfl
    | ⟨1, _⟩ => rfl)

/-- The kernel's linear layer on the flattened rows, with the weight transposed (and narrowed, which changes nothing
    over the extended reals), is the reference's projection flattened. -/
theorem lin_eq_refLin (x : FVec Ideal S2x2048x1024 .f32) (W : FVec Ideal S1024x1024 .f32) (b : FVec Ideal S1024 .f32)
    (h1 : S2x2048x1024.ShapeCasts Cert.Spec.Rows) (h2 : S1024x1024.Transposes [1, 0] Cert.Spec.Sq) (h3 : FTy.bits .bf16 < FTy.bits .f32) :
    Cert.Spec.lin (shapeCast Cert.Spec.Rows x h1) (truncf (F := Ideal) .bf16 (transpose Cert.Spec.Sq [1, 0] W h2) h3) b
      = shapeCast Cert.Spec.Rows (refLin x W b) h1 := by
  funext i
  obtain ⟨r, e, rfl⟩ : ∃ (r : Fin 4096) (e : Fin 1024), i = ix2 r e := ⟨i 0, i 1, eq_ix2 i⟩
  rw [rows_apply (refLin x W b) h1 r e, refLin_apply]
  show (∑ k : Fin 1024, shapeCast Cert.Spec.Rows x h1 (ix2 r k)
      * (truncf (F := Ideal) .bf16 (transpose Cert.Spec.Sq [1, 0] W h2) h3) (ix2 k e)) + b (ix1 e) = _
  refine congrArg (· + b (ix1 e)) (Finset.sum_congr rfl fun k _ => ?_)
  rw [rows_apply x h1 r k, wt_apply W h2 h3 k e]

end Cert.Bridge

end
-- ==== Proof.AttnBridge.lean ====
import proofs.«112309_j91336774517485_1_alg».proof.Proof.Gen.ReferenceIdeal
import proofs.«112309_j91336774517485_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.Bridge

open Cert.ReferenceIdeal Cert.ReferenceIdeal.Gen
open Idealize.ShloMosaic Idealize.ShloMosaic.ValueIdx

/-- The word 0x3F800000 denotes the real 1. -/
theorem ofBits_one : Ideal.ofBits .f32 0x3F800000#32 = ((1 : ℝ) : EReal) := by
  simp [Ideal.ofBits, Ideal.ieee, -EReal.coe_mul]; norm_num

/-- The word 0x42800000 denotes the real 64. -/
theorem ofBits_sixtyfour : Ideal.ofBits .f32 0x42800000#32 = ((64 : ℝ) : EReal) := by
  simp [Ideal.ofBits, Ideal.ieee, -EReal.coe_mul]; norm_num

/-- The word 0x3E000000 denotes the real 1/8. -/
theorem ofBits_eighth : Ideal.ofBits .f32 0x3E000000#32 = ((1 / 8 : ℝ) : EReal) := by
  simp [Ideal.ofBits, Ideal.ieee, -EReal.coe_mul]; norm_num

/-- The reference's scale 1 / √64, read at the one rank-0 index, is the word for 1/8:
    √64 = 8 on the reals, and dividing 1 by the nonzero real 8 is the product with 1/8. -/
theorem scale_eq (i : S_.Idx) :
    Host.divf (constant (F := Ideal) S_ .f32 0x3F800000#32) (Host.sqrt (constant (F := Ideal) S_ .f32 0x42800000#32)) i
      = Cert.Spec.eighth := by
  show Ideal.div (Ideal.ofBits .f32 0x3F800000#32) (Ideal.sqrt (Ideal.ofBits .f32 0x42800000#32)) = Ideal.ofBits .f32 0x3E000000#32
  rw [ofBits_one, ofBits_sixtyfour, ofBits_eighth]
  have h8 : Real.sqrt 64 = 8 := by
    rw [show (64 : ℝ) = 8 ^ 2 by norm_num]; exact Real.sqrt_sq (by norm_num)
  have hs : Ideal.sqrt ((64 : ℝ) : EReal) = ((8 : ℝ) : EReal) := by
    show (if (64 : ℝ) < 0 then (⊥ : EReal) else (Real.sqrt 64 : EReal)) = _
    rw [if_neg (by norm_num), h8]
  rw [hs, Ideal.div_coe (by norm_num)]
  rw [← EReal.coe_mul]; norm_num

/-- The reference's attention over [2, 16, 2048, 64]: scores Q·Kᵀ scaled by 1/√64, times the transposed mask, then · V,
    as its host operations compute it. -/
def refAttn (Q K V : FVec Ideal S2x16x2048x64 .f32) (A : FVec Ideal S2048x2048 .f32) : FVec Ideal S2x16x2048x64 .f32 :=
  Host.dotGeneral dot_S2x16x2048x2048_S2x16x2048x64_S2x16x2048x64_3_2_2_3_01_01 none
    (mulf (mulf (Host.dotGeneral dot_S2x16x2048x64_S2x16x2048x64_S2x16x2048x2048_3_3_2_2_01_01 none Q K)
        (broadcastInDim S2x16x2048x2048 ![] bcast_S_S2x16x2048x2048
          (Host.divf (constant (F := Ideal) S_ .f32 0x3F800000#32) (Host.sqrt (constant (F := Ideal) S_ .f32 0x42800000#32)))))
      (broadcastInDim S2x16x2048x2048 ![0, 1, 2, 3] bcast_S1x1x2048x2048_S2x16x2048x2048_0_1_2_3
        (broadcastInDim S1x1x2048x2048 ![2, 3] bcast_S2048x2048_S1x1x2048x2048_2_3
          (transpose S2048x2048 [1, 0] A transposes_S2048x2048_S2048x2048_1_0))))
    V

/-! ### The scores Q · Kᵀ: batch axes 0 and 1, the query axis free on the left, the key axis free on the right, the
    head width contracted on both sides. Each operand coordinate, one axis at a time. -/

theorem scores_lhs_0 (i : S2x16x2048x2048.Idx) (c : dot_S2x16x2048x64_S2x16x2048x64_S2x16x2048x2048_3_3_2_2_01_01.contr.Idx) :
    (dot_S2x16x2048x64_S2x16x2048x64_S2x16x2048x2048_3_3_2_2_01_01.lhsIdx i c 0).val = (i 0).val := by
  unfold DotDims.lhsIdx
  rw [dif_pos (show (0 : Fin S2x16x2048x64.rank) ∈ dot_S2x16x2048x64_S2x16x2048x64_S2x16x2048x2048_3_3_2_2_01_01.lhsBatch by decide)]
  rfl
theorem scores_lhs_1 (i : S2x16x2048x2048.Idx) (c : dot_S2x16x2048x64_S2x16x2048x64_S2x16x2048x2048_3_3_2_2_01_01.contr.Idx) :
    (dot_S2x16x2048x64_S2x16x2048x64_S2x16x2048x2048_3_3_2_2_01_01.lhsIdx i c 1).val = (i 1).val := by
  unfold DotDims.lhsIdx
  rw [dif_pos (show (1 : Fin S2x16x2048x64.rank) ∈ dot_S2x16x2048x64_S2x16x2048x64_S2x16x2048x2048_3_3_2_2_01_01.lhsBatch by decide)]
  rfl
theorem scores_lhs_2 (i : S2x16x2048x2048.Idx) (c : dot_S2x16x2048x64_S2x16x2048x64_S2x16x2048x2048_3_3_2_2_01_01.contr.Idx) :
    (dot_S2x16x2048x64_S2x16x2048x64_S2x16x2048x2048_3_3_2_2_01_01.lhsIdx i c 2).val = (i 2).val := by
  unfold DotDims.lhsIdx
  rw [dif_neg (show ¬(2 : Fin S2x16x2048x64.rank) ∈ dot_S2x16x2048x64_S2x16x2048x64_S2x16x2048x2048_3_3_2_2_01_01.lhsBatch by decide),
    dif_pos (show (2 : Fin S2x16x2048x64.rank) ∈ dot_S2x16x2048x64_S2x16x2048x64_S2x16x2048x2048_3_3_2_2_01_01.lhsNonContracting by decide)]
  rfl
theorem scores_lhs_3 (i : S2x16x2048x2048.Idx) (c : dot_S2x16x2048x64_S2x16x2048x64_S2x16x2048x2048_3_3_2_2_01_01.contr.Idx) :
    (dot_S2x16x2048x64_S2x16x2048x64_S2x16x2048x2048_3_3_2_2_01_01.lhsIdx i c 3).val = (c ⟨0, by decide⟩).val :=
  dot_S2x16x2048x64_S2x16x2048x64_S2x16x2048x2048_3_3_2_2_01_01.lhsIdx_val_of_single rfl i c
theorem scores_rhs_0 (i : S2x16x2048x2048.Idx) (c : dot_S2x16x2048x64_S2x16x2048x64_S2x16x2048x2048_3_3_2_2_01_01.contr.Idx) :
    (dot_S2x16x2048x64_S2x16x2048x64_S2x16x2048x2048_3_3_2_2_01_01.rhsIdx i c 0).val = (i 0).val := by
  unfold DotDims.rhsIdx
  rw [dif_pos (show (0 : Fin S2x16x2048x64.rank) ∈ dot_S2x16x2048x64_S2x16x2048x64_S2x16x2048x2048_3_3_2_2_01_01.rhsBatch by decide)]
  rfl
theorem scores_rhs_1 (i : S2x16x2048x2048.Idx) (c : dot_S2x16x2048x64_S2x16x2048x64_S2x16x2048x2048_3_3_2_2_01_01.contr.Idx) :
    (dot_S2x16x2048x64_S2x16x2048x64_S2x16x2048x2048_3_3_2_2_01_01.rhsIdx i c 1).val = (i 1).val := by
  unfold DotDims.rhsIdx
  rw [dif_pos (show (1 : Fin S2x16x2048x64.rank) ∈ dot_S2x16x2048x64_S2x16x2048x64_S2x16x2048x2048_3_3_2_2_01_01.rhsBatch by decide)]
  rfl
theorem scores_rhs_2 (i : S2x16x2048x2048.Idx) (c : dot_S2x16x2048x64_S2x16x2048x64_S2x16x2048x2048_3_3_2_2_01_01.contr.Idx) :
    (dot_S2x16x2048x64_S2x16x2048x64_S2x16x2048x2048_3_3_2_2_01_01.rhsIdx i c 2).val = (i 3).val := by
  unfold DotDims.rhsIdx
  rw [dif_neg (show ¬(2 : Fin S2x16x2048x64.rank) ∈ dot_S2x16x2048x64_S2x16x2048x64_S2x16x2048x2048_3_3_2_2_01_01.rhsBatch by decide),
    dif_pos (show (2 : Fin S2x16x2048x64.rank) ∈ dot_S2x16x2048x64_S2x16x2048x64_S2x16x2048x2048_3_3_2_2_01_01.rhsNonContracting by decide)]
  rfl
theorem scores_rhs_3 (i : S2x16x2048x2048.Idx) (c : dot_S2x16x2048x64_S2x16x2048x64_S2x16x2048x2048_3_3_2_2_01_01.contr.Idx) :
    (dot_S2x16x2048x64_S2x16x2048x64_S2x16x2048x2048_3_3_2_2_01_01.rhsIdx i c 3).val = (c ⟨0, by decide⟩).val :=
  dot_S2x16x2048x64_S2x16x2048x64_S2x16x2048x2048_3_3_2_2_01_01.rhsIdx_val_of_single rfl i c

/-- The scores at (b, h, q, k): Σ_j Q[b,h,q,j] · K[b,h,k,j]. -/
theorem scores_apply (Q K : FVec Ideal S2x16x2048x64 .f32) (b : Fin 2) (hh : Fin 16) (q k : Fin 2048) :
    Host.dotGeneral dot_S2x16x2048x64_S2x16x2048x64_S2x16x2048x2048_3_3_2_2_01_01 none Q K (ix4 b hh q k)
      = ∑ j : Fin 64, Q (ix4 b hh q j) * K (ix4 b hh k j) := by
  simp only [Host.dotGeneral]
  rw [Ideal.dotGeneral_apply, ← Equiv.sum_comp (contrEquiv1 dot_S2x16x2048x64_S2x16x2048x64_S2x16x2048x2048_3_3_2_2_01_01 64 rfl rfl).symm]
  refine Finset.sum_congr rfl fun j _ => ?_
  have hj := contrEquiv1_symm_val dot_S2x16x2048x64_S2x16x2048x64_S2x16x2048x2048_3_3_2_2_01_01 64 rfl rfl j
  have el : dot_S2x16x2048x64_S2x16x2048x64_S2x16x2048x2048_3_3_2_2_01_01.lhsIdx (ix4 b hh q k) ((contrEquiv1 dot_S2x16x2048x64_S2x16x2048x64_S2x16x2048x2048_3_3_2_2_01_01 64 rfl rfl).symm j) = ix4 b hh q j :=
    funext fun a => Fin.ext (by
      match a with
      | ⟨0, _⟩ => exact scores_lhs_0 _ _
      | ⟨1, _⟩ => exact scores_lhs_1 _ _
      | ⟨2, _⟩ => exact scores_lhs_2 _ _
      | ⟨3, _⟩ => exact (scores_lhs_3 _ _).trans hj)
  have er : dot_S2x16x2048x64_S2x16x2048x64_S2x16x2048x2048_3_3_2_2_01_01.rhsIdx (ix4 b hh q k) ((contrEquiv1 dot_S2x16x2048x64_S2x16x2048x64_S2x16x2048x2048_3_3_2_2_01_01 64 rfl rfl).symm j) = ix4 b hh k j :=
    funext fun a => Fin.ext (by
      match a with
      | ⟨0, _⟩ => exact scores_rhs_0 _ _
      | ⟨1, _⟩ => exact scores_rhs_1 _ _
      | ⟨2, _⟩ => exact scores_rhs_2 _ _
      | ⟨3, _⟩ => exact (scores_rhs_3 _ _).trans hj)
  rw [el, er]

/-! ### The product with V: batch axes 0 and 1, the query axis free on the left, the key axis contracted (axis 3 of the
    weights, axis 2 of V), V's width free on the right. -/

theorem pv_lhs_0 (i : S2x16x2048x64.Idx) (c : dot_S2x16x2048x2048_S2x16x2048x64_S2x16x2048x64_3_2_2_3_01_01.contr.Idx) :
    (dot_S2x16x2048x2048_S2x16x2048x64_S2x16x2048x64_3_2_2_3_01_01.lhsIdx i c 0).val = (i 0).val := by
  unfold DotDims.lhsIdx
  rw [dif_pos (show (0 : Fin S2x16x2048x2048.rank) ∈ dot_S2x16x2048x2048_S2x16x2048x64_S2x16x2048x64_3_2_2_3_01_01.lhsBatch by decide)]
  rfl
theorem pv_lhs_1 (i : S2x16x2048x64.Idx) (c : dot_S2x16x2048x2048_S2x16x2048x64_S2x16x2048x64_3_2_2_3_01_01.contr.Idx) :
    (dot_S2x16x2048x2048_S2x16x2048x64_S2x16x2048x64_3_2_2_3_01_01.lhsIdx i c 1).val = (i 1).val := by
  unfold DotDims.lhsIdx
  rw [dif_pos (show (1 : Fin S2x16x2048x2048.rank) ∈ dot_S2x16x2048x2048_S2x16x2048x64_S2x16x2048x64_3_2_2_3_01_01.lhsBatch by decide)]
  rfl
theorem pv_lhs_2 (i : S2x16x2048x64.Idx) (c : dot_S2x16x2048x2048_S2x16x2048x64_S2x16x2048x64_3_2_2_3_01_01.contr.Idx) :
    (dot_S2x16x2048x2048_S2x16x2048x64_S2x16x2048x64_3_2_2_3_01_01.lhsIdx i c 2).val = (i 2).val := by
  unfold DotDims.lhsIdx
  rw [dif_neg (show ¬(2 : Fin S2x16x2048x2048.rank) ∈ dot_S2x16x2048x2048_S2x16x2048x64_S2x16x2048x64_3_2_2_3_01_01.lhsBatch by decide),
    dif_pos (show (2 : Fin S2x16x2048x2048.rank) ∈ dot_S2x16x2048x2048_S2x16x2048x64_S2x16x2048x64_3_2_2_3_01_01.lhsNonContracting by decide)]
  rfl
theorem pv_lhs_3 (i : S2x16x2048x64.Idx) (c : dot_S2x16x2048x2048_S2x16x2048x64_S2x16x2048x64_3_2_2_3_01_01.contr.Idx) :
    (dot_S2x16x2048x2048_S2x16x2048x64_S2x16x2048x64_3_2_2_3_01_01.lhsIdx i c 3).val = (c ⟨0, by decide⟩).val :=
  dot_S2x16x2048x2048_S2x16x2048x64_S2x16x2048x64_3_2_2_3_01_01.lhsIdx_val_of_single rfl i c
theorem pv_rhs_0 (i : S2x16x2048x64.Idx) (c : dot_S2x16x2048x2048_S2x16x2048x64_S2x16x2048x64_3_2_2_3_01_01.contr.Idx) :
    (dot_S2x16x2048x2048_S2x16x2048x64_S2x16x2048x64_3_2_2_3_01_01.rhsIdx i c 0).val = (i 0).val := by
  unfold DotDims.rhsIdx
  rw [dif_pos (show (0 : Fin S2x16x2048x64.rank) ∈ dot_S2x16x2048x2048_S2x16x2048x64_S2x16x2048x64_3_2_2_3_01_01.rhsBatch by decide)]
  rfl
theorem pv_rhs_1 (i : S2x16x2048x64.Idx) (c : dot_S2x16x2048x2048_S2x16x2048x64_S2x16x2048x64_3_2_2_3_01_01.contr.Idx) :
    (dot_S2x16x2048x2048_S2x16x2048x64_S2x16x2048x64_3_2_2_3_01_01.rhsIdx i c 1).val = (i 1).val := by
  unfold DotDims.rhsIdx
  rw [dif_pos (show (1 : Fin S2x16x2048x64.rank) ∈ dot_S2x16x2048x2048_S2x16x2048x64_S2x16x2048x64_3_2_2_3_01_01.rhsBatch by decide)]
  rfl
theorem pv_rhs_2 (i : S2x16x2048x64.Idx) (c : dot_S2x16x2048x2048_S2x16x2048x64_S2x16x2048x64_3_2_2_3_01_01.contr.Idx) :
    (dot_S2x16x2048x2048_S2x16x2048x64_S2x16x2048x64_3_2_2_3_01_01.rhsIdx i c 2).val = (c ⟨0, by decide⟩).val :=
  dot_S2x16x2048x2048_S2x16x2048x64_S2x16x2048x64_3_2_2_3_01_01.rhsIdx_val_of_single rfl i c
theorem pv_rhs_3 (i : S2x16x2048x64.Idx) (c : dot_S2x16x2048x2048_S2x16x2048x64_S2x16x2048x64_3_2_2_3_01_01.contr.Idx) :
    (dot_S2x16x2048x2048_S2x16x2048x64_S2x16x2048x64_3_2_2_3_01_01.rhsIdx i c 3).val = (i 3).val := by
  unfold DotDims.rhsIdx
  rw [dif_neg (show ¬(3 : Fin S2x16x2048x64.rank) ∈ dot_S2x16x2048x2048_S2x16x2048x64_S2x16x2048x64_3_2_2_3_01_01.rhsBatch by decide),
    dif_pos (show (3 : Fin S2x16x2048x64.rank) ∈ dot_S2x16x2048x2048_S2x16x2048x64_S2x16x2048x64_3_2_2_3_01_01.rhsNonContracting by decide)]
  rfl

/-- The weights times V at (b, h, q, d): Σ_k P[b,h,q,k] · V[b,h,k,d]. -/
theorem pv_apply (P : FVec Ideal S2x16x2048x2048 .f32) (V : FVec Ideal S2x16x2048x64 .f32) (b : Fin 2) (hh : Fin 16) (q : Fin 2048) (d : Fin 64) :
    Host.dotGeneral dot_S2x16x2048x2048_S2x16x2048x64_S2x16x2048x64_3_2_2_3_01_01 none P V (ix4 b hh q d)
      = ∑ k : Fin 2048, P (ix4 b hh q k) * V (ix4 b hh k d) := by
  simp only [Host.dotGeneral]
  rw [Ideal.dotGeneral_apply, ← Equiv.sum_comp (contrEquiv1 dot_S2x16x2048x2048_S2x16x2048x64_S2x16x2048x64_3_2_2_3_01_01 2048 rfl rfl).symm]
  refine Finset.sum_congr rfl fun k _ => ?_
  have hk := contrEquiv1_symm_val dot_S2x16x2048x2048_S2x16x2048x64_S2x16x2048x64_3_2_2_3_01_01 2048 rfl rfl k
  have el : dot_S2x16x2048x2048_S2x16x2048x64_S2x16x2048x64_3_2_2_3_01_01.lhsIdx (ix4 b hh q d) ((contrEquiv1 dot_S2x16x2048x2048_S2x16x2048x64_S2x16x2048x64_3_2_2_3_01_01 2048 rfl rfl).symm k) = ix4 b hh q k :=
    funext fun a => Fin.ext (by
      match a with
      | ⟨0, _⟩ => exact pv_lhs_0 _ _
      | ⟨1, _⟩ => exact pv_lhs_1 _ _
      | ⟨2, _⟩ => exact pv_lhs_2 _ _
      | ⟨3, _⟩ => exact (pv_lhs_3 _ _).trans hk)
  have er : dot_S2x16x2048x2048_S2x16x2048x64_S2x16x2048x64_3_2_2_3_01_01.rhsIdx (ix4 b hh q d) ((contrEquiv1 dot_S2x16x2048x2048_S2x16x2048x64_S2x16x2048x64_3_2_2_3_01_01 2048 rfl rfl).symm k) = ix4 b hh k d :=
    funext fun a => Fin.ext (by
      match a with
      | ⟨0, _⟩ => exact pv_rhs_0 _ _
      | ⟨1, _⟩ => exact pv_rhs_1 _ _
      | ⟨2, _⟩ => exact (pv_rhs_2 _ _).trans hk
      | ⟨3, _⟩ => exact pv_rhs_3 _ _)
  rw [el, er]

/-- The scale broadcast to every score is the word for 1/8 everywhere. -/
theorem scale_bcast_apply (i : S2x16x2048x2048.Idx) :
    broadcastInDim S2x16x2048x2048 ![] bcast_S_S2x16x2048x2048
        (Host.divf (constant (F := Ideal) S_ .f32 0x3F800000#32) (Host.sqrt (constant (F := Ideal) S_ .f32 0x42800000#32))) i
      = Cert.Spec.eighth := by
  generalize hy : Host.divf (constant (F := Ideal) S_ .f32 0x3F800000#32) (Host.sqrt (constant (F := Ideal) S_ .f32 0x42800000#32)) = y
  rw [broadcastInDim_apply _ bcast_S_S2x16x2048x2048 y i ix0 (fun a => a.elim0), ← hy]
  exact scale_eq ix0

/-- The mask as the reference spreads it over the groups: transposed, then given two unit axes, then repeated
    over batch and head; at (b, h, q, k) it is A[k, q]. -/
theorem mask_bcast_apply (A : FVec Ideal S2048x2048 .f32) (b : Fin 2) (hh : Fin 16) (q k : Fin 2048) :
    broadcastInDim S2x16x2048x2048 ![0, 1, 2, 3] bcast_S1x1x2048x2048_S2x16x2048x2048_0_1_2_3
        (broadcastInDim S1x1x2048x2048 ![2, 3] bcast_S2048x2048_S1x1x2048x2048_2_3
          (transpose S2048x2048 [1, 0] A transposes_S2048x2048_S2048x2048_1_0)) (ix4 b hh q k)
      = A (ix2 k q) := by
  generalize hy1 : transpose S2048x2048 [1, 0] A transposes_S2048x2048_S2048x2048_1_0 = y1
  generalize hy2 : broadcastInDim S1x1x2048x2048 ![2, 3] bcast_S2048x2048_S1x1x2048x2048_2_3 y1 = y2
  rw [broadcastInDim_apply _ bcast_S1x1x2048x2048_S2x16x2048x2048_0_1_2_3 y2 (ix4 b hh q k)
      (ix4 (0 : Fin 1) (0 : Fin 1) q k) (fun a => match a with
        | ⟨0, _⟩ => by show 0 = if (1 : Nat) = 1 then 0 else b.val; rw [if_pos rfl]
        | ⟨1, _⟩ => by show 0 = if (1 : Nat) = 1 then 0 else hh.val; rw [if_pos rfl]
        | ⟨2, _⟩ => by show q.val = if (2048 : Nat) = 1 then 0 else q.val; rw [if_neg (by decide)]
        | ⟨3, _⟩ => by show k.val = if (2048 : Nat) = 1 then 0 else k.val; rw [if_neg (by decide)])]
  rw [← hy2, broadcastInDim_apply _ bcast_S2048x2048_S1x1x2048x2048_2_3 y1 (ix4 (0 : Fin 1) (0 : Fin 1) q k)
      (ix2 q k) (fun a => match a with
        | ⟨0, _⟩ => by show q.val = if (2048 : Nat) = 1 then 0 else q.val; rw [if_neg (by decide)]
        | ⟨1, _⟩ => by show k.val = if (2048 : Nat) = 1 then 0 else k.val; rw [if_neg (by decide)])]
  rw [← hy1]
  exact transpose_apply [1, 0] A transposes_S2048x2048_S2048x2048_1_0 (ix2 q k) (ix2 k q) (fun c => match c with
    | ⟨0, _⟩ => rfl
    | ⟨1, _⟩ => rfl)

/-- The reference's attention at (b, h, q, d), as one sum over the keys. -/
theorem refAttn_apply (Q K V : FVec Ideal S2x16x2048x64 .f32) (A : FVec Ideal S2048x2048 .f32)
    (b : Fin 2) (hh : Fin 16) (q : Fin 2048) (d : Fin 64) :
    refAttn Q K V A (ix4 b hh q d)
      = ∑ k : Fin 2048, (((∑ j : Fin 64, Q (ix4 b hh q j) * K (ix4 b hh k j)) * Cert.Spec.eighth) * A (ix2 k q))
          * V (ix4 b hh k d) := by
  unfold refAttn
  rw [pv_apply]
  refine Finset.sum_congr rfl fun k _ => ?_
  rw [mulf_apply, mulf_apply, scores_apply, scale_bcast_apply, mask_bcast_apply]

/-- Flattening (batch, head) to one group axis: group g = 16·b + h of the flattened array is entry (b, h) of the original,
    since the two row-major positions agree. -/
theorem heads_cast_apply (X : FVec Ideal S2x16x2048x64 .f32) (h : S2x16x2048x64.ShapeCasts Cert.Spec.Heads)
    (b : Fin 2) (hh : Fin 16) (p : Fin 2048) (e : Fin 64) (g : Fin 32) (hg : g.val = 16 * b.val + hh.val) :
    shapeCast Cert.Spec.Heads X h (ix3 g p e) = X (ix4 b hh p e) := by
  refine shapeCast_apply X h (ix3 g p e) (ix4 b hh p e) ?_
  rw [Shape.rowMajor_val_four, Shape.rowMajor_val_three]
  show ((b.val * 16 + hh.val) * 2048 + p.val) * 64 + e.val = (g.val * 2048 + p.val) * 64 + e.val
  rw [hg]
  omega

/-- The kernel's attention on the 32 flattened (batch, head) groups is the reference's attention flattened. -/
theorem attn_eq_refAttn (Q K V : FVec Ideal S2x16x2048x64 .f32) (A : FVec Ideal S2048x2048 .f32)
    (h : S2x16x2048x64.ShapeCasts Cert.Spec.Heads) (hA : S2048x2048.Transposes [1, 0] Cert.Spec.Mask) :
    Cert.Spec.attn (shapeCast Cert.Spec.Heads Q h) (shapeCast Cert.Spec.Heads K h) (shapeCast Cert.Spec.Heads V h)
        (transpose Cert.Spec.Mask [1, 0] A hA)
      = shapeCast Cert.Spec.Heads (refAttn Q K V A) h := by
  funext i
  obtain ⟨g, q, d, rfl⟩ : ∃ (g : Fin 32) (q : Fin 2048) (d : Fin 64), i = ix3 g q d := ⟨i 0, i 1, i 2, eq_ix3 i⟩
  -- the group splits as g = 16·b + h
  obtain ⟨b, hh, hg⟩ : ∃ (b : Fin 2) (hh : Fin 16), g.val = 16 * b.val + hh.val :=
    ⟨⟨g.val / 16, by have := g.isLt; omega⟩, ⟨g.val % 16, Nat.mod_lt _ (by decide)⟩, by
      show g.val = 16 * (g.val / 16) + g.val % 16
      omega⟩
  rw [heads_cast_apply (refAttn Q K V A) h b hh q d g hg, refAttn_apply]
  show Cert.Spec.attnAt _ _ _ _ g q d = _
  unfold Cert.Spec.attnAt
  refine Finset.sum_congr rfl fun k _ => ?_
  have hs : (∑ j : Fin 64, shapeCast Cert.Spec.Heads Q h (ix3 g q j) * shapeCast Cert.Spec.Heads K h (ix3 g k j))
      = ∑ j : Fin 64, Q (ix4 b hh q j) * K (ix4 b hh k j) :=
    Finset.sum_congr rfl fun j _ => by
      rw [heads_cast_apply Q h b hh q j g hg, heads_cast_apply K h b hh k j g hg]
  have hM : transpose Cert.Spec.Mask [1, 0] A hA (ix2 q k) = A (ix2 k q) :=
    transpose_apply [1, 0] A hA (ix2 q k) (ix2 k q) (fun c => match c with
      | ⟨0, _⟩ => rfl
      | ⟨1, _⟩ => rfl)
  rw [hs, hM, heads_cast_apply V h b hh k d g hg]

end Cert.Bridge

end
-- ==== Proof.LibReshape.lean ====
/-
  A reshape of a reshape is the reshape: re-indexing an array to a second shape and then to a third matches each index
  of the third shape with the index of the first at the same row-major position, whatever the shape in between.
-/
import Idealize.ShloMosaic.PureOps
import Idealize.ShloMosaic.Lib.Pipeline.Value

namespace Cert.LibReshape

open Idealize.ShloMosaic

/-- Two reshapes in a row are one: both read the operand at the index with the same row-major position. -/
theorem shapeCast_comp {s t u : Shape} {α : Type} (v : s.Idx → α) (h : s.ShapeCasts t) (h' : t.ShapeCasts u)
    (h'' : s.ShapeCasts u) : shapeCast u (shapeCast t v h) h' = shapeCast u v h'' :=
  funext fun i => congrArg v (Shape.reshapeEquiv_reshapeEquiv h h' i)

end Cert.LibReshape
-- ==== Proof.Bridge.lean ====
/-
  The kernel program's result function and the reference program's result are one function of the twelve arguments.

  Each projection: the linear layer on the flattened rows with the transposed weight is the reference's x · Wᵀ + b,
  flattened. Splitting flattened rows into heads is splitting the unflattened array into heads and flattening the two
  leading axes (a reshape of a reshape is the reshape). The attention on the 32 flattened groups is the reference's
  attention with its two leading axes flattened. Merging heads back undoes that flattening and the reference's own
  reshape to [2, 2048, 1024] meets the kernel's to [4096, 1024] (reshapes again). The output projection is the first
  step once more, and unflattening the flattened result is the identity.
-/
import proofs.«112309_j91336774517485_1_alg».proof.Proof.KTerm
import proofs.«112309_j91336774517485_1_alg».proof.Proof.ProjBridge
import proofs.«112309_j91336774517485_1_alg».proof.Proof.AttnBridge
import proofs.«112309_j91336774517485_1_alg».proof.Proof.LibReshape

set_option maxRecDepth 16384

noncomputable section

namespace Cert.Bridge

open Cert.ReferenceIdeal Cert.ReferenceIdeal.Gen
open Idealize.ShloMosaic
open Cert.KernelIdeal.Term (wt rows heads merge maskT kernelResult)

/-- The reference's split into heads: [2, 2048, 1024] → [2, 2048, 16, 64] → [2, 16, 2048, 64]. -/
def refHeads (z : FVec Ideal S2x2048x1024 .f32) : FVec Ideal S2x16x2048x64 .f32 :=
  transpose S2x16x2048x64 [0, 2, 1, 3] (shapeCast S2x2048x16x64 z shapeCasts_S2x2048x1024_S2x2048x16x64)
    transposes_S2x2048x16x64_S2x16x2048x64_0_2_1_3
/-- The reference's merge of heads: [2, 16, 2048, 64] → [2, 2048, 16, 64] → [2, 2048, 1024]. -/
def refMerge (o : FVec Ideal S2x16x2048x64 .f32) : FVec Ideal S2x2048x1024 .f32 :=
  shapeCast S2x2048x1024 (transpose S2x2048x16x64 [0, 2, 1, 3] o transposes_S2x16x2048x64_S2x2048x16x64_0_2_1_3)
    shapeCasts_S2x2048x16x64_S2x2048x1024

/-- The reference program's result as one function of its twelve arguments. -/
def refResult (q k v : FVec Ideal S2x2048x1024 .f32) (A : FVec Ideal S2048x2048 .f32)
    (Wq : FVec Ideal S1024x1024 .f32) (bq : FVec Ideal S1024 .f32) (Wk : FVec Ideal S1024x1024 .f32) (bk : FVec Ideal S1024 .f32)
    (Wv : FVec Ideal S1024x1024 .f32) (bv : FVec Ideal S1024 .f32) (Wo : FVec Ideal S1024x1024 .f32) (bo : FVec Ideal S1024 .f32) :
    FVec Ideal S2x2048x1024 .f32 :=
  refLin (refMerge (refAttn (refHeads (refLin q Wq bq)) (refHeads (refLin k Wk bk)) (refHeads (refLin v Wv bv)) A)) Wo bo

/-- A projection of the kernel program is the reference's, flattened to rows. -/
theorem proj_eq (x : FVec Ideal S2x2048x1024 .f32) (W : FVec Ideal S1024x1024 .f32) (b : FVec Ideal S1024 .f32) :
    Cert.Spec.lin (rows x) (wt W) b = shapeCast Cert.Spec.Rows (refLin x W b) Cert.KernelIdeal.Gen.shapeCasts_S2x2048x1024_S4096x1024 :=
  lin_eq_refLin x W b _ _ _

/-- Heads of flattened rows are the reference's heads with the two leading axes flattened. -/
theorem heads_eq (z : FVec Ideal S2x2048x1024 .f32) (h : S2x2048x1024.ShapeCasts Cert.Spec.Rows) :
    heads (shapeCast Cert.Spec.Rows z h) = shapeCast Cert.Spec.Heads (refHeads z) Cert.KernelIdeal.Gen.shapeCasts_S2x16x2048x64_S32x2048x64 := by
  unfold heads refHeads
  rw [Cert.LibReshape.shapeCast_comp z h Cert.KernelIdeal.Gen.shapeCasts_S4096x1024_S2x2048x16x64 shapeCasts_S2x2048x1024_S2x2048x16x64]

/-- Merging the flattened groups back into rows is the reference's merge, flattened to rows. -/
theorem merge_eq (o : FVec Ideal S2x16x2048x64 .f32) (h : S2x16x2048x64.ShapeCasts Cert.Spec.Heads) :
    merge (shapeCast Cert.Spec.Heads o h) = shapeCast Cert.Spec.Rows (refMerge o) Cert.KernelIdeal.Gen.shapeCasts_S2x2048x1024_S4096x1024 := by
  unfold merge refMerge
  rw [Idealize.ShloMosaic.shapeCast_shapeCast o h Cert.KernelIdeal.Gen.shapeCasts_S32x2048x64_S2x16x2048x64]
  rw [Cert.LibReshape.shapeCast_comp _ shapeCasts_S2x2048x16x64_S2x2048x1024 Cert.KernelIdeal.Gen.shapeCasts_S2x2048x1024_S4096x1024
    Cert.KernelIdeal.Gen.shapeCasts_S2x2048x16x64_S4096x1024]

/-- The two programs compute one function. -/
theorem kernel_eq_ref (q k v : FVec Ideal S2x2048x1024 .f32) (A : FVec Ideal S2048x2048 .f32)
    (Wq : FVec Ideal S1024x1024 .f32) (bq : FVec Ideal S1024 .f32) (Wk : FVec Ideal S1024x1024 .f32) (bk : FVec Ideal S1024 .f32)
    (Wv : FVec Ideal S1024x1024 .f32) (bv : FVec Ideal S1024 .f32) (Wo : FVec Ideal S1024x1024 .f32) (bo : FVec Ideal S1024 .f32) :
    kernelResult q k v A Wq bq Wk bk Wv bv Wo bo = refResult q k v A Wq bq Wk bk Wv bv Wo bo := by
  unfold kernelResult refResult
  rw [proj_eq q Wq bq, proj_eq k Wk bk, proj_eq v Wv bv, heads_eq, heads_eq, heads_eq]
  rw [show maskT A = transpose Cert.Spec.Mask [1, 0] A Cert.KernelIdeal.Gen.transposes_S2048x2048_S2048x2048_1_0 from rfl]
  rw [attn_eq_refAttn, merge_eq]
  rw [show Cert.Spec.lin (shapeCast Cert.Spec.Rows (refMerge (refAttn (refHeads (refLin q Wq bq)) (refHeads (refLin k Wk bk)) (refHeads (refLin v Wv bv)) A))
        Cert.KernelIdeal.Gen.shapeCasts_S2x2048x1024_S4096x1024) (wt Wo) bo
      = _ from proj_eq _ Wo bo]
  exact Idealize.ShloMosaic.shapeCast_shapeCast _ _ _

end Cert.Bridge

end
-- ==== Proof.RegionLin.lean ====
import proofs.«112309_j91336774517485_1_alg».proof.Proof.Gen.KernelIdeal.Frame
import proofs.«112309_j91336774517485_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegionValue

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The contraction's index maps: rows' axis 1 against the weight's axis 0 -/

theorem lhs_lin_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs_lin_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhs_lin_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhs_lin_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- A block of rows times the whole weight, into a zero accumulator: entry (p, q) is the sum over k of row p at k times
    the weight at (k, q). -/
theorem matmul_lin_apply {φ₁ φ₂ : FTy} (a : FVec Ideal S512x1024 φ₁) (w : FVec Ideal S1024x1024 φ₂) (p : Fin 512) (q : Fin 1024) :
    matmul dot_S512x1024_S1024x1024_S512x1024_1_0_0_1_n_n none a w (constant S512x1024 .f32 0x00000000#32) (ix2 p q)
      = ∑ k : Fin 1024, a (ix2 p k) * w (ix2 k q) := by
  show FloatOps.matmul dot_S512x1024_S1024x1024_S512x1024_1_0_0_1_n_n none a w (constant S512x1024 .f32 0x00000000#32) (ix2 p q) = _
  rw [Ideal.matmul_constant_zero_apply, ← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 p q) ((ValueIdx.contrEquiv1 dot_S512x1024_S1024x1024_S512x1024_1_0_0_1_n_n 1024 rfl rfl).symm k) = ix2 p k := funext fun a => Fin.ext (by
    match a with
    | ⟨0, _⟩ => exact lhs_lin_0 _ _
    | ⟨1, _⟩ => exact (lhs_lin_1 _ _).trans hk)
  have er : dot_S512x1024_S1024x1024_S512x1024_1_0_0_1_n_n.rhsIdx (ix2 p q) ((ValueIdx.contrEquiv1 dot_S512x1024_S1024x1024_S512x1024_1_0_0_1_n_n 1024 rfl rfl).symm k) = ix2 k q := funext fun a => Fin.ext (by
    match a with
    | ⟨0, _⟩ => exact (rhs_lin_0 _ _).trans hk
    | ⟨1, _⟩ => exact rhs_lin_1 _ _)
  rw [el, er]

/-- The bias, cast to one row and broadcast over the block's rows, reads at (p, q) the bias at q. -/
theorem bias_lin_apply (b : FVec Ideal S1024 .f32) (p : Fin 512) (q : Fin 1024) :
    broadcastTo S512x1024 (shapeCast S1x1024 b shapeCasts_S1024_S1x1024) broadcasts_S1x1024_S512x1024 (ix2 p q) = b (ix1 q) := by
  rw [broadcastTo_1b_ab_apply, shapeCast_a_1a_apply]

/-! ## The four payloads at an index -/

/-- Region 0's payload at (p, q): the narrowing casts are the identity over the extended reals, so it is the row-p,
    column-q entry of the product plus the bias at q. -/
theorem pay0_apply (x0 : Vec Ideal S512x1024 .f32) (x1 : Vec Ideal S1024x1024 .bf16) (x2 : Vec Ideal S1024 .f32) (p : Fin 512) (q : Fin 1024) :
    k0_pay1 (F := Ideal) x0 x1 x2 (ix2 p q) = (∑ k : Fin 1024, x0 (ix2 p k) * x1 (ix2 k q)) + x2 (ix1 q) := by
  unfold k0_pay1
  rw [truncf_apply, addf_apply, bias_lin_apply, shapeCast_self, shapeCast_self, matmul_lin_apply]
  rfl

/-- The same, at an index not yet split into its coordinates. -/
theorem pay0_apply' (x0 : Vec Ideal S512x1024 .f32) (x1 : Vec Ideal S1024x1024 .bf16) (x2 : Vec Ideal S1024 .f32) (j : S512x1024.Idx) :
    k0_pay1 (F := Ideal) x0 x1 x2 j = (∑ k : Fin 1024, x0 (ix2 (j 0) k) * x1 (ix2 k (j 1))) + x2 (ix1 (j 1)) :=
  (congrArg (k0_pay1 (F := Ideal) x0 x1 x2) (eq_ix2 j)).trans (pay0_apply x0 x1 x2 (j 0) (j 1))

/-- Region 1's payload is the same tree of operations. -/
theorem pay1_apply (x0 : Vec Ideal S512x1024 .f32) (x1 : Vec Ideal S1024x1024 .bf16) (x2 : Vec Ideal S1024 .f32) (p : Fin 512) (q : Fin 1024) :
    k1_pay1 (F := Ideal) x0 x1 x2 (ix2 p q) = (∑ k : Fin 1024, x0 (ix2 p k) * x1 (ix2 k q)) + x2 (ix1 q) := by
  unfold k1_pay1
  rw [truncf_apply, addf_apply, bias_lin_apply, shapeCast_self, shapeCast_self, matmul_lin_apply]
  rfl

theorem pay1_apply' (x0 : Vec Ideal S512x1024 .f32) (x1 : Vec Ideal S1024x1024 .bf16) (x2 : Vec Ideal S1024 .f32) (j : S512x1024.Idx) :
    k1_pay1 (F := Ideal) x0 x1 x2 j = (∑ k : Fin 1024, x0 (ix2 (j 0) k) * x1 (ix2 k (j 1))) + x2 (ix1 (j 1)) :=
  (congrArg (k1_pay1 (F := Ideal) x0 x1 x2) (eq_ix2 j)).trans (pay1_apply x0 x1 x2 (j 0) (j 1))

/-- So is region 2's. -/
theorem pay2_apply (x0 : Vec Ideal S512x1024 .f32) (x1 : Vec Ideal S1024x1024 .bf16) (x2 : Vec Ideal S1024 .f32) (p : Fin 512) (q : Fin 1024) :
    k2_pay1 (F := Ideal) x0 x1 x2 (ix2 p q) = (∑ k : Fin 1024, x0 (ix2 p k) * x1 (ix2 k q)) + x2 (ix1 q) := by
  unfold k2_pay1
  rw [truncf_apply, addf_apply, bias_lin_apply, shapeCast_self, shapeCast_self, matmul_lin_apply]
  rfl

theorem pay2_apply' (x0 : Vec Ideal S512x1024 .f32) (x1 : Vec Ideal S1024x1024 .bf16) (x2 : Vec Ideal S1024 .f32) (j : S512x1024.Idx) :
    k2_pay1 (F := Ideal) x0 x1 x2 j = (∑ k : Fin 1024, x0 (ix2 (j 0) k) * x1 (ix2 k (j 1))) + x2 (ix1 (j 1)) :=
  (congrArg (k2_pay1 (F := Ideal) x0 x1 x2) (eq_ix2 j)).trans (pay2_apply x0 x1 x2 (j 0) (j 1))

/-- Region 4's payload takes its rows already narrowed and leaves the sum as it is: no cast at either end. -/
theorem pay4_apply (x0 : Vec Ideal S512x1024 .bf16) (x1 : Vec Ideal S1024x1024 .bf16) (x2 : Vec Ideal S1024 .f32) (p : Fin 512) (q : Fin 1024) :
    k4_pay1 (F := Ideal) x0 x1 x2 (ix2 p q) = (∑ k : Fin 1024, x0 (ix2 p k) * x1 (ix2 k q)) + x2 (ix1 q) := by
  unfold k4_pay1
  rw [addf_apply, bias_lin_apply, shapeCast_self, shapeCast_self, matmul_lin_apply]

theorem pay4_apply' (x0 : Vec Ideal S512x1024 .bf16) (x1 : Vec Ideal S1024x1024 .bf16) (x2 : Vec Ideal S1024 .f32) (j : S512x1024.Idx) :
    k4_pay1 (F := Ideal) x0 x1 x2 j = (∑ k : Fin 1024, x0 (ix2 (j 0) k) * x1 (ix2 k (j 1))) + x2 (ix1 (j 1)) :=
  (congrArg (k4_pay1 (F := Ideal) x0 x1 x2) (eq_ix2 j)).trans (pay4_apply x0 x1 x2 (j 0) (j 1))

/-! ## Reading the arrays under a block -/

/-- The linear layer's entry with the three arrays read at given indices: Σ_k X[f k] · Wt[g k] + b[i]. -/
def linRead (X : Cert.Spec.Rows.Idx → EReal) (Wt : Cert.Spec.Sq.Idx → EReal) (b : Cert.Spec.Bias.Idx → EReal)
    (f : Fin 1024 → Cert.Spec.Rows.Idx) (g : Fin 1024 → Cert.Spec.Sq.Idx) (i : Cert.Spec.Bias.Idx) : EReal :=
  (∑ k : Fin 1024, X (f k) * Wt (g k)) + b i

/-- The zero offsets of a whole-block access, as the constant function. -/
theorem zeros2 : (![0, 0] : Fin 2 → Nat) = fun _ => 0 := funext fun a => by fin_cases a <;> rfl
theorem zeros1 : (![0] : Fin 1 → Nat) = fun _ => 0 := funext fun a => by fin_cases a <;> rfl

/-! ## Region 0 -/

/-- The printed index maps over the grid: the rows' block moves with the output's block, the weight and the bias stay
    whole on every axis. -/
theorem idx_facts0 : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 1) = 0
    ∧ win0_3.index t (1 : Fin 2) = 0 :=
  (by decide +kernel : ∀ t : Fin grid0.N, _)

/-- Every block of rows is some point's. -/
theorem idx_onto0 : ∀ q0 : Fin 8, ∃ t : Fin cfg0.N, win0_3.index t = ![q0.val, 0] :=
  (by decide +kernel : ∀ q0 : Fin 8, ∃ t : Fin grid0.N, win0_3.index t = ![q0.val, 0])

/-- What point t writes back is block t of the linear layer of the arrays the region found. -/
theorem flushed0_eq (c : Dev nD) (t : Fin cfg0.N) :
    (dat0 V c).flushed 3 t = ((cfg0.win 3).blk t).view.read (Elt Ideal) (Cert.Spec.lin (V c main_v0) (V c main_v4) (V c main_arg5)) := by
  show (cfg0.win 3).cut (grid0.coords t) ((dat0 V c).after 3 t) = _
  rw [after0_3]
  unfold out0_3
  rw [View.canon_unit_zero zeros2]
  simp only [View.ld_unit_zero (S := S512x1024) zeros2, View.ld_unit_zero (S := S1024x1024) zeros2, View.ld_unit_zero (S := S1024) zeros1]
  obtain ⟨e0, e1, e2, e3, e4, e5⟩ := idx_facts0 t
  funext j
  refine (pay0_apply' (iblk0 V c 0 t) (iblk0 V c 1 t) (iblk0 V c 2 t) j).trans ?_
  show linRead (V c main_v0) (V c main_v4) (V c main_arg5) (fun k => ((cfg0.win 0).blk t).view.emb (ix2 (j 0) k))
      (fun k => ((cfg0.win 1).blk t).view.emb (ix2 k (j 1))) (((cfg0.win 2).blk t).view.emb (ix1 (j 1)))
    = linRead (V c main_v0) (V c main_v4) (V c main_arg5) (fun k => ix2 ((((cfg0.win 3).blk t).view.emb j) 0) k)
      (fun k => ix2 k ((((cfg0.win 3).blk t).view.emb j) 1)) (ix1 ((((cfg0.win 3).blk t).view.emb j) 1))
  have h0 : ∀ k : Fin 1024, ((cfg0.win 0).blk t).view.emb (ix2 (j 0) k) = ix2 ((((cfg0.win 3).blk t).view.emb j) 0) k := fun k => by
    funext a; apply Fin.ext
    match a with
    | ⟨0, _⟩ => show win0_0.index t (0 : Fin 2) * 512 + 1 * (j 0).val = win0_3.index t (0 : Fin 2) * 512 + 1 * (j 0).val; omega
    | ⟨1, _⟩ => show win0_0.index t (1 : Fin 2) * 1024 + 1 * k.val = k.val; omega
  have h1 : ∀ k : Fin 1024, ((cfg0.win 1).blk t).view.emb (ix2 k (j 1)) = ix2 k ((((cfg0.win 3).blk t).view.emb j) 1) := fun k => by
    funext a; apply Fin.ext
    match a with
    | ⟨0, _⟩ => show win0_1.index t (0 : Fin 2) * 1024 + 1 * k.val = k.val; omega
    | ⟨1, _⟩ => show win0_1.index t (1 : Fin 2) * 1024 + 1 * (j 1).val = win0_3.index t (1 : Fin 2) * 1024 + 1 * (j 1).val; omega
  have h2 : ((cfg0.win 2).blk t).view.emb (ix1 (j 1)) = ix1 ((((cfg0.win 3).blk t).view.emb j) 1) := by
    funext a; apply Fin.ext
    match a with
    | ⟨0, _⟩ => show win0_2.index t (0 : Fin 1) * 1024 + 1 * (j 1).val = win0_3.index t (1 : Fin 2) * 1024 + 1 * (j 1).val; omega
  rw [funext h0, funext h1, h2]
  rfl

/-- An index of the output array is in point t's block iff each coordinate is in the block's range on its axis. -/
theorem mem_blk0 (t : Fin cfg0.N) (i : S4096x1024.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v5).slice (win0_3.rect t)).set ↔ _
  rw [View.set_slice_whole, Rect.mem_set_unit]
  exact Iff.rfl

/-- Row r lies in the block of point r / 512: the blocks of 512 rows tile the 4096 rows. -/
theorem cover0 (i : S4096x1024.Idx) : ∃ t : Fin cfg0.N, (cfg0.win 3).flush t = true ∧ i ∈ ((cfg0.win 3).blk t).view.set := by
  have hi0 : (i 0).val < 4096 := (i 0).isLt
  have hi1 : (i 1).val < 1024 := (i 1).isLt
  obtain ⟨t, ht⟩ := idx_onto0 ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-- Region 0 (the query projection): after the region its output array is the linear layer of the three arrays the region
    found on entry. -/
theorem region0 (c : Dev nD) : (dat0 V c).arrAt 3 cfg0.N = Cert.Spec.lin (V c main_v0) (V c main_v4) (V c main_arg5) :=
  (dat0 V c).arrAt_eq_of_cover 3 (Cert.Spec.lin (V c main_v0) (V c main_v4) (V c main_arg5)) (fun t _ => flushed0_eq V c t) cover0

/-! ## Region 1 -/

/-- The printed index maps over the grid: the rows' block moves with the output's block, the weight and the bias stay
    whole on every axis. -/
theorem idx_facts1 : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 1) = 0
    ∧ win1_3.index t (1 : Fin 2) = 0 :=
  (by decide +kernel : ∀ t : Fin grid1.N, _)

/-- Every block of rows is some point's. -/
theorem idx_onto1 : ∀ q0 : Fin 8, ∃ t : Fin cfg1.N, win1_3.index t = ![q0.val, 0] :=
  (by decide +kernel : ∀ q0 : Fin 8, ∃ t : Fin grid1.N, win1_3.index t = ![q0.val, 0])

/-- What point t writes back is block t of the linear layer of the arrays the region found. -/
theorem flushed1_eq (c : Dev nD) (t : Fin cfg1.N) :
    (dat1 V c).flushed 3 t = ((cfg1.win 3).blk t).view.read (Elt Ideal) (Cert.Spec.lin (V c main_v1) (V c main_v7) (V c main_arg7)) := by
  show (cfg1.win 3).cut (grid1.coords t) ((dat1 V c).after 3 t) = _
  rw [after1_3]
  unfold out1_3
  rw [View.canon_unit_zero zeros2]
  simp only [View.ld_unit_zero (S := S512x1024) zeros2, View.ld_unit_zero (S := S1024x1024) zeros2, View.ld_unit_zero (S := S1024) zeros1]
  obtain ⟨e0, e1, e2, e3, e4, e5⟩ := idx_facts1 t
  funext j
  refine (pay1_apply' (iblk1 V c 0 t) (iblk1 V c 1 t) (iblk1 V c 2 t) j).trans ?_
  show linRead (V c main_v1) (V c main_v7) (V c main_arg7) (fun k => ((cfg1.win 0).blk t).view.emb (ix2 (j 0) k))
      (fun k => ((cfg1.win 1).blk t).view.emb (ix2 k (j 1))) (((cfg1.win 2).blk t).view.emb (ix1 (j 1)))
    = linRead (V c main_v1) (V c main_v7) (V c main_arg7) (fun k => ix2 ((((cfg1.win 3).blk t).view.emb j) 0) k)
      (fun k => ix2 k ((((cfg1.win 3).blk t).view.emb j) 1)) (ix1 ((((cfg1.win 3).blk t).view.emb j) 1))
  have h0 : ∀ k : Fin 1024, ((cfg1.win 0).blk t).view.emb (ix2 (j 0) k) = ix2 ((((cfg1.win 3).blk t).view.emb j) 0) k := fun k => by
    funext a; apply Fin.ext
    match a with
    | ⟨0, _⟩ => show win1_0.index t (0 : Fin 2) * 512 + 1 * (j 0).val = win1_3.index t (0 : Fin 2) * 512 + 1 * (j 0).val; omega
    | ⟨1, _⟩ => show win1_0.index t (1 : Fin 2) * 1024 + 1 * k.val = k.val; omega
  have h1 : ∀ k : Fin 1024, ((cfg1.win 1).blk t).view.emb (ix2 k (j 1)) = ix2 k ((((cfg1.win 3).blk t).view.emb j) 1) := fun k => by
    funext a; apply Fin.ext
    match a with
    | ⟨0, _⟩ => show win1_1.index t (0 : Fin 2) * 1024 + 1 * k.val = k.val; omega
    | ⟨1, _⟩ => show win1_1.index t (1 : Fin 2) * 1024 + 1 * (j 1).val = win1_3.index t (1 : Fin 2) * 1024 + 1 * (j 1).val; omega
  have h2 : ((cfg1.win 2).blk t).view.emb (ix1 (j 1)) = ix1 ((((cfg1.win 3).blk t).view.emb j) 1) := by
    funext a; apply Fin.ext
    match a with
    | ⟨0, _⟩ => show win1_2.index t (0 : Fin 1) * 1024 + 1 * (j 1).val = win1_3.index t (1 : Fin 2) * 1024 + 1 * (j 1).val; omega
  rw [funext h0, funext h1, h2]
  rfl

/-- An index of the output array is in point t's block iff each coordinate is in the block's range on its axis. -/
theorem mem_blk1 (t : Fin cfg1.N) (i : S4096x1024.Idx) :
    i ∈ ((cfg1.win 3).blk t).view.set ↔ ∀ a : Fin 2, win1_3.index t a * S512x1024.size a ≤ (i a).val ∧ (i a).val < win1_3.index t a * S512x1024.size a + S512x1024.size a := by
  show i ∈ ((View.whole main_v8).slice (win1_3.rect t)).set ↔ _
  rw [View.set_slice_whole, Rect.mem_set_unit]
  exact Iff.rfl

/-- Row r lies in the block of point r / 512: the blocks of 512 rows tile the 4096 rows. -/
theorem cover1 (i : S4096x1024.Idx) : ∃ t : Fin cfg1.N, (cfg1.win 3).flush t = true ∧ i ∈ ((cfg1.win 3).blk t).view.set := by
  have hi0 : (i 0).val < 4096 := (i 0).isLt
  have hi1 : (i 1).val < 1024 := (i 1).isLt
  obtain ⟨t, ht⟩ := idx_onto1 ⟨(i 0).val / 512, by omega⟩
  have q0 : win1_3.index t (0 : Fin 2) = (i 0).val / 512 := congrFun ht 0
  have q1 : win1_3.index t (1 : Fin 2) = 0 := congrFun ht 1
  refine ⟨t, flush1_3 t, ?_⟩
  rw [mem_blk1]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 1024 ≤ (i 1).val ∧ (i 1).val < win1_3.index t (1 : Fin 2) * 1024 + 1024; omega

/-- Region 1 (the key projection), likewise. -/
theorem region1 (c : Dev nD) : (dat1 V c).arrAt 3 cfg1.N = Cert.Spec.lin (V c main_v1) (V c main_v7) (V c main_arg7) :=
  (dat1 V c).arrAt_eq_of_cover 3 (Cert.Spec.lin (V c main_v1) (V c main_v7) (V c main_arg7)) (fun t _ => flushed1_eq V c t) cover1

/-! ## Region 2 -/

/-- The printed index maps over the grid: the rows' block moves with the output's block, the weight and the bias stay
    whole on every axis. -/
theorem idx_facts2 : ∀ t : Fin cfg2.N, win2_0.index t (0 : Fin 2) = win2_3.index t (0 : Fin 2)
    ∧ win2_0.index t (1 : Fin 2) = 0
    ∧ win2_1.index t (0 : Fin 2) = 0
    ∧ win2_1.index t (1 : Fin 2) = 0
    ∧ win2_2.index t (0 : Fin 1) = 0
    ∧ win2_3.index t (1 : Fin 2) = 0 :=
  (by decide +kernel : ∀ t : Fin grid2.N, _)

/-- Every block of rows is some point's. -/
theorem idx_onto2 : ∀ q0 : Fin 8, ∃ t : Fin cfg2.N, win2_3.index t = ![q0.val, 0] :=
  (by decide +kernel : ∀ q0 : Fin 8, ∃ t : Fin grid2.N, win2_3.index t = ![q0.val, 0])

/-- What point t writes back is block t of the linear layer of the arrays the region found. -/
theorem flushed2_eq (c : Dev nD) (t : Fin cfg2.N) :
    (dat2 V c).flushed 3 t = ((cfg2.win 3).blk t).view.read (Elt Ideal) (Cert.Spec.lin (V c main_v2) (V c main_v10) (V c main_arg9)) := by
  show (cfg2.win 3).cut (grid2.coords t) ((dat2 V c).after 3 t) = _
  rw [after2_3]
  unfold out2_3
  rw [View.canon_unit_zero zeros2]
  simp only [View.ld_unit_zero (S := S512x1024) zeros2, View.ld_unit_zero (S := S1024x1024) zeros2, View.ld_unit_zero (S := S1024) zeros1]
  obtain ⟨e0, e1, e2, e3, e4, e5⟩ := idx_facts2 t
  funext j
  refine (pay2_apply' (iblk2 V c 0 t) (iblk2 V c 1 t) (iblk2 V c 2 t) j).trans ?_
  show linRead (V c main_v2) (V c main_v10) (V c main_arg9) (fun k => ((cfg2.win 0).blk t).view.emb (ix2 (j 0) k))
      (fun k => ((cfg2.win 1).blk t).view.emb (ix2 k (j 1))) (((cfg2.win 2).blk t).view.emb (ix1 (j 1)))
    = linRead (V c main_v2) (V c main_v10) (V c main_arg9) (fun k => ix2 ((((cfg2.win 3).blk t).view.emb j) 0) k)
      (fun k => ix2 k ((((cfg2.win 3).blk t).view.emb j) 1)) (ix1 ((((cfg2.win 3).blk t).view.emb j) 1))
  have h0 : ∀ k : Fin 1024, ((cfg2.win 0).blk t).view.emb (ix2 (j 0) k) = ix2 ((((cfg2.win 3).blk t).view.emb j) 0) k := fun k => by
    funext a; apply Fin.ext
    match a with
    | ⟨0, _⟩ => show win2_0.index t (0 : Fin 2) * 512 + 1 * (j 0).val = win2_3.index t (0 : Fin 2) * 512 + 1 * (j 0).val; omega
    | ⟨1, _⟩ => show win2_0.index t (1 : Fin 2) * 1024 + 1 * k.val = k.val; omega
  have h1 : ∀ k : Fin 1024, ((cfg2.win 1).blk t).view.emb (ix2 k (j 1)) = ix2 k ((((cfg2.win 3).blk t).view.emb j) 1) := fun k => by
    funext a; apply Fin.ext
    match a with
    | ⟨0, _⟩ => show win2_1.index t (0 : Fin 2) * 1024 + 1 * k.val = k.val; omega
    | ⟨1, _⟩ => show win2_1.index t (1 : Fin 2) * 1024 + 1 * (j 1).val = win2_3.index t (1 : Fin 2) * 1024 + 1 * (j 1).val; omega
  have h2 : ((cfg2.win 2).blk t).view.emb (ix1 (j 1)) = ix1 ((((cfg2.win 3).blk t).view.emb j) 1) := by
    funext a; apply Fin.ext
    match a with
    | ⟨0, _⟩ => show win2_2.index t (0 : Fin 1) * 1024 + 1 * (j 1).val = win2_3.index t (1 : Fin 2) * 1024 + 1 * (j 1).val; omega
  rw [funext h0, funext h1, h2]
  rfl

/-- An index of the output array is in point t's block iff each coordinate is in the block's range on its axis. -/
theorem mem_blk2 (t : Fin cfg2.N) (i : S4096x1024.Idx) :
    i ∈ ((cfg2.win 3).blk t).view.set ↔ ∀ a : Fin 2, win2_3.index t a * S512x1024.size a ≤ (i a).val ∧ (i a).val < win2_3.index t a * S512x1024.size a + S512x1024.size a := by
  show i ∈ ((View.whole main_v11).slice (win2_3.rect t)).set ↔ _
  rw [View.set_slice_whole, Rect.mem_set_unit]
  exact Iff.rfl

/-- Row r lies in the block of point r / 512: the blocks of 512 rows tile the 4096 rows. -/
theorem cover2 (i : S4096x1024.Idx) : ∃ t : Fin cfg2.N, (cfg2.win 3).flush t = true ∧ i ∈ ((cfg2.win 3).blk t).view.set := by
  have hi0 : (i 0).val < 4096 := (i 0).isLt
  have hi1 : (i 1).val < 1024 := (i 1).isLt
  obtain ⟨t, ht⟩ := idx_onto2 ⟨(i 0).val / 512, by omega⟩
  have q0 : win2_3.index t (0 : Fin 2) = (i 0).val / 512 := congrFun ht 0
  have q1 : win2_3.index t (1 : Fin 2) = 0 := congrFun ht 1
  refine ⟨t, flush2_3 t, ?_⟩
  rw [mem_blk2]
  intro a
  match a with
  | ⟨0, _⟩ => show win2_3.index t (0 : Fin 2) * 512 ≤ (i 0).val ∧ (i 0).val < win2_3.index t (0 : Fin 2) * 512 + 512; omega
  | ⟨1, _⟩ => show win2_3.index t (1 : Fin 2) * 1024 ≤ (i 1).val ∧ (i 1).val < win2_3.index t (1 : Fin 2) * 1024 + 1024; omega

/-- Region 2 (the value projection), likewise. -/
theorem region2 (c : Dev nD) : (dat2 V c).arrAt 3 cfg2.N = Cert.Spec.lin (V c main_v2) (V c main_v10) (V c main_arg9) :=
  (dat2 V c).arrAt_eq_of_cover 3 (Cert.Spec.lin (V c main_v2) (V c main_v10) (V c main_arg9)) (fun t _ => flushed2_eq V c t) cover2

/-! ## Region 4 -/

/-- The printed index maps over the grid: the rows' block moves with the output's block, the weight and the bias stay
    whole on every axis. -/
theorem idx_facts4 : ∀ t : Fin cfg4.N, win4_0.index t (0 : Fin 2) = win4_3.index t (0 : Fin 2)
    ∧ win4_0.index t (1 : Fin 2) = 0
    ∧ win4_1.index t (0 : Fin 2) = 0
    ∧ win4_1.index t (1 : Fin 2) = 0
    ∧ win4_2.index t (0 : Fin 1) = 0
    ∧ win4_3.index t (1 : Fin 2) = 0 :=
  (by decide +kernel : ∀ t : Fin grid4.N, _)

/-- Every block of rows is some point's. -/
theorem idx_onto4 : ∀ q0 : Fin 8, ∃ t : Fin cfg4.N, win4_3.index t = ![q0.val, 0] :=
  (by decide +kernel : ∀ q0 : Fin 8, ∃ t : Fin grid4.N, win4_3.index t = ![q0.val, 0])

/-- What point t writes back is block t of the linear layer of the arrays the region found. -/
theorem flushed4_eq (c : Dev nD) (t : Fin cfg4.N) :
    (dat4 V c).flushed 3 t = ((cfg4.win 3).blk t).view.read (Elt Ideal) (Cert.Spec.lin (V c main_v25) (V c main_v27) (V c main_arg11)) := by
  show (cfg4.win 3).cut (grid4.coords t) ((dat4 V c).after 3 t) = _
  rw [after4_3]
  unfold out4_3
  rw [View.canon_unit_zero zeros2]
  simp only [View.ld_unit_zero (S := S512x1024) zeros2, View.ld_unit_zero (S := S1024x1024) zeros2, View.ld_unit_zero (S := S1024) zeros1]
  obtain ⟨e0, e1, e2, e3, e4, e5⟩ := idx_facts4 t
  funext j
  refine (pay4_apply' (iblk4 V c 0 t) (iblk4 V c 1 t) (iblk4 V c 2 t) j).trans ?_
  show linRead (V c main_v25) (V c main_v27) (V c main_arg11) (fun k => ((cfg4.win 0).blk t).view.emb (ix2 (j 0) k))
      (fun k => ((cfg4.win 1).blk t).view.emb (ix2 k (j 1))) (((cfg4.win 2).blk t).view.emb (ix1 (j 1)))
    = linRead (V c main_v25) (V c main_v27) (V c main_arg11) (fun k => ix2 ((((cfg4.win 3).blk t).view.emb j) 0) k)
      (fun k => ix2 k ((((cfg4.win 3).blk t).view.emb j) 1)) (ix1 ((((cfg4.win 3).blk t).view.emb j) 1))
  have h0 : ∀ k : Fin 1024, ((cfg4.win 0).blk t).view.emb (ix2 (j 0) k) = ix2 ((((cfg4.win 3).blk t).view.emb j) 0) k := fun k => by
    funext a; apply Fin.ext
    match a with
    | ⟨0, _⟩ => show win4_0.index t (0 : Fin 2) * 512 + 1 * (j 0).val = win4_3.index t (0 : Fin 2) * 512 + 1 * (j 0).val; omega
    | ⟨1, _⟩ => show win4_0.index t (1 : Fin 2) * 1024 + 1 * k.val = k.val; omega
  have h1 : ∀ k : Fin 1024, ((cfg4.win 1).blk t).view.emb (ix2 k (j 1)) = ix2 k ((((cfg4.win 3).blk t).view.emb j) 1) := fun k => by
    funext a; apply Fin.ext
    match a with
    | ⟨0, _⟩ => show win4_1.index t (0 : Fin 2) * 1024 + 1 * k.val = k.val; omega
    | ⟨1, _⟩ => show win4_1.index t (1 : Fin 2) * 1024 + 1 * (j 1).val = win4_3.index t (1 : Fin 2) * 1024 + 1 * (j 1).val; omega
  have h2 : ((cfg4.win 2).blk t).view.emb (ix1 (j 1)) = ix1 ((((cfg4.win 3).blk t).view.emb j) 1) := by
    funext a; apply Fin.ext
    match a with
    | ⟨0, _⟩ => show win4_2.index t (0 : Fin 1) * 1024 + 1 * (j 1).val = win4_3.index t (1 : Fin 2) * 1024 + 1 * (j 1).val; omega
  rw [funext h0, funext h1, h2]
  rfl

/-- An index of the output array is in point t's block iff each coordinate is in the block's range on its axis. -/
theorem mem_blk4 (t : Fin cfg4.N) (i : S4096x1024.Idx) :
    i ∈ ((cfg4.win 3).blk t).view.set ↔ ∀ a : Fin 2, win4_3.index t a * S512x1024.size a ≤ (i a).val ∧ (i a).val < win4_3.index t a * S512x1024.size a + S512x1024.size a := by
  show i ∈ ((View.whole main_v28).slice (win4_3.rect t)).set ↔ _
  rw [View.set_slice_whole, Rect.mem_set_unit]
  exact Iff.rfl

/-- Row r lies in the block of point r / 512: the blocks of 512 rows tile the 4096 rows. -/
theorem cover4 (i : S4096x1024.Idx) : ∃ t : Fin cfg4.N, (cfg4.win 3).flush t = true ∧ i ∈ ((cfg4.win 3).blk t).view.set := by
  have hi0 : (i 0).val < 4096 := (i 0).isLt
  have hi1 : (i 1).val < 1024 := (i 1).isLt
  obtain ⟨t, ht⟩ := idx_onto4 ⟨(i 0).val / 512, by omega⟩
  have q0 : win4_3.index t (0 : Fin 2) = (i 0).val / 512 := congrFun ht 0
  have q1 : win4_3.index t (1 : Fin 2) = 0 := congrFun ht 1
  refine ⟨t, flush4_3 t, ?_⟩
  rw [mem_blk4]
  intro a
  match a with
  | ⟨0, _⟩ => show win4_3.index t (0 : Fin 2) * 512 ≤ (i 0).val ∧ (i 0).val < win4_3.index t (0 : Fin 2) * 512 + 512; omega
  | ⟨1, _⟩ => show win4_3.index t (1 : Fin 2) * 1024 ≤ (i 1).val ∧ (i 1).val < win4_3.index t (1 : Fin 2) * 1024 + 1024; omega

/-- Region 4 (the output projection), likewise. -/
theorem region4 (c : Dev nD) : (dat4 V c).arrAt 3 cfg4.N = Cert.Spec.lin (V c main_v25) (V c main_v27) (V c main_arg11) :=
  (dat4 V c).arrAt_eq_of_cover 3 (Cert.Spec.lin (V c main_v25) (V c main_v27) (V c main_arg11)) (fun t _ => flushed4_eq V c t) cover4

end Cert.KernelIdeal.RegionValue

end
-- ==== Proof.RegionAttn.lean ====
import proofs.«112309_j91336774517485_1_alg».proof.Proof.Gen.KernelIdeal.Frame
import proofs.«112309_j91336774517485_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegionValue

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The score scale is the word the kernel splats. -/
theorem eighth_eq : (Scalar.ofBits .f32 0x3E000000#32 : Ideal .f32) = Cert.Spec.eighth := rfl

/-! ## The two matrix products at an index

  Scores: the left operand's axis 1 against the right operand's axis 1 (Q · Kᵀ). Output: the weights' axis 1 against the
  values' axis 0. Per product, where each operand's coordinates come from: the result's index or the contraction's. -/

theorem lhs_QK_0 (i : S512x2048.Idx) (q : dot_S512x64_S2048x64_S512x2048_1_1_0_0_n_n.contr.Idx) :
    (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
theorem lhs_QK_1 (i : S512x2048.Idx) (q : dot_S512x64_S2048x64_S512x2048_1_1_0_0_n_n.contr.Idx) :
    (dot_S512x64_S2048x64_S512x2048_1_1_0_0_n_n.lhsIdx i q 1).val = (q ⟨0, by decide⟩).val :=
  dot_S512x64_S2048x64_S512x2048_1_1_0_0_n_n.lhsIdx_val_of_single rfl i q
theorem rhs_QK_0 (i : S512x2048.Idx) (q : dot_S512x64_S2048x64_S512x2048_1_1_0_0_n_n.contr.Idx) :
    (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
theorem rhs_QK_1 (i : S512x2048.Idx) (q : dot_S512x64_S2048x64_S512x2048_1_1_0_0_n_n.contr.Idx) :
    (dot_S512x64_S2048x64_S512x2048_1_1_0_0_n_n.rhsIdx i q 1).val = (q ⟨0, by decide⟩).val :=
  dot_S512x64_S2048x64_S512x2048_1_1_0_0_n_n.rhsIdx_val_of_single rfl i q

/-- The scores' matmul at an index: row q of the left operand against row k of the right one. -/
theorem matmul_QK_apply (a : FVec Ideal S512x64 .bf16) (b : FVec Ideal S2048x64 .bf16) (q : Fin 512) (k : Fin 2048) :
    matmul (F := Ideal) dot_S512x64_S2048x64_S512x2048_1_1_0_0_n_n none a b (constant (F := Ideal) S512x2048 .f32 0x00000000#32) (ix2 q k)
      = ∑ j : Fin 64, a (ix2 q j) * b (ix2 k j) := by
  simp only [matmul]
  rw [Ideal.matmul_constant_zero_apply, ← Equiv.sum_comp (ValueIdx.contrEquiv1 dot_S512x64_S2048x64_S512x2048_1_1_0_0_n_n 64 rfl rfl).symm]
  refine Finset.sum_congr rfl fun j _ => ?_
  have hk := ValueIdx.contrEquiv1_symm_val dot_S512x64_S2048x64_S512x2048_1_1_0_0_n_n 64 rfl rfl j
  have el : dot_S512x64_S2048x64_S512x2048_1_1_0_0_n_n.lhsIdx (ix2 q k) ((ValueIdx.contrEquiv1 dot_S512x64_S2048x64_S512x2048_1_1_0_0_n_n 64 rfl rfl).symm j) = ix2 q j := funext fun a => Fin.ext (by
    match a with
    | ⟨0, _⟩ => exact lhs_QK_0 _ _
    | ⟨1, _⟩ => exact (lhs_QK_1 _ _).trans hk)
  have er : dot_S512x64_S2048x64_S512x2048_1_1_0_0_n_n.rhsIdx (ix2 q k) ((ValueIdx.contrEquiv1 dot_S512x64_S2048x64_S512x2048_1_1_0_0_n_n 64 rfl rfl).symm j) = ix2 k j := funext fun a => Fin.ext (by
    match a with
    | ⟨0, _⟩ => exact rhs_QK_0 _ _
    | ⟨1, _⟩ => exact (rhs_QK_1 _ _).trans hk)
  rw [el, er]

theorem lhs_PV_0 (i : S512x64.Idx) (q : dot_S512x2048_S2048x64_S512x64_1_0_0_1_n_n.contr.Idx) :
    (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem lhs_PV_1 (i : S512x64.Idx) (q : dot_S512x2048_S2048x64_S512x64_1_0_0_1_n_n.contr.Idx) :
    (dot_S512x2048_S2048x64_S512x64_1_0_0_1_n_n.lhsIdx i q 1).val = (q ⟨0, by decide⟩).val :=
  dot_S512x2048_S2048x64_S512x64_1_0_0_1_n_n.lhsIdx_val_of_single rfl i q
theorem rhs_PV_0 (i : S512x64.Idx) (q : dot_S512x2048_S2048x64_S512x64_1_0_0_1_n_n.contr.Idx) :
    (dot_S512x2048_S2048x64_S512x64_1_0_0_1_n_n.rhsIdx i q 0).val = (q ⟨0, by decide⟩).val :=
  dot_S512x2048_S2048x64_S512x64_1_0_0_1_n_n.rhsIdx_val_of_single rfl i q
theorem rhs_PV_1 (i : S512x64.Idx) (q : dot_S512x2048_S2048x64_S512x64_1_0_0_1_n_n.contr.Idx) :
    (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- The second matmul at an index: row q of the weights against column d of the values. -/
theorem matmul_PV_apply (a : FVec Ideal S512x2048 .bf16) (b : FVec Ideal S2048x64 .bf16) (q : Fin 512) (d : Fin 64) :
    matmul (F := Ideal) dot_S512x2048_S2048x64_S512x64_1_0_0_1_n_n none a b (constant (F := Ideal) S512x64 .f32 0x00000000#32) (ix2 q d)
      = ∑ k : Fin 2048, a (ix2 q k) * b (ix2 k d) := by
  simp only [matmul]
  rw [Ideal.matmul_constant_zero_apply, ← Equiv.sum_comp (ValueIdx.contrEquiv1 dot_S512x2048_S2048x64_S512x64_1_0_0_1_n_n 2048 rfl rfl).symm]
  refine Finset.sum_congr rfl fun k _ => ?_
  have hk := ValueIdx.contrEquiv1_symm_val dot_S512x2048_S2048x64_S512x64_1_0_0_1_n_n 2048 rfl rfl k
  have el : dot_S512x2048_S2048x64_S512x64_1_0_0_1_n_n.lhsIdx (ix2 q d) ((ValueIdx.contrEquiv1 dot_S512x2048_S2048x64_S512x64_1_0_0_1_n_n 2048 rfl rfl).symm k) = ix2 q k := funext fun a => Fin.ext (by
    match a with
    | ⟨0, _⟩ => exact lhs_PV_0 _ _
    | ⟨1, _⟩ => exact (lhs_PV_1 _ _).trans hk)
  have er : dot_S512x2048_S2048x64_S512x64_1_0_0_1_n_n.rhsIdx (ix2 q d) ((ValueIdx.contrEquiv1 dot_S512x2048_S2048x64_S512x64_1_0_0_1_n_n 2048 rfl rfl).symm k) = ix2 k d := funext fun a => Fin.ext (by
    match a with
    | ⟨0, _⟩ => exact (rhs_PV_0 _ _).trans hk
    | ⟨1, _⟩ => exact rhs_PV_1 _ _)
  rw [el, er]

/-! ## The body's payload at an index -/

/-- The body's payload at block coordinates (u, q, d): the masked, scaled scores of query row q against every key row,
    weighted over the value rows at column d. -/
theorem pay_apply (x0 : Vec Ideal S1x512x64 .bf16) (x1 x2 : Vec Ideal S1x2048x64 .bf16) (x3 : Vec Ideal S512x2048 .f32)
    (u : Fin 1) (q : Fin 512) (d : Fin 64) :
    k3_pay1 (F := Ideal) x0 x1 x2 x3 (ix3 u q d)
      = ∑ k : Fin 2048, (((∑ j : Fin 64, x0 (ix3 (0 : Fin 1) q j) * x1 (ix3 (0 : Fin 1) k j)) * Cert.Spec.eighth) * x3 (ix2 q k)) * x2 (ix3 (0 : Fin 1) k d) := by
  unfold k3_pay1
  rw [shapeCast_ab_1ab_apply, truncf_apply, matmul_PV_apply]
  refine Finset.sum_congr rfl fun k _ => ?_
  rw [truncf_apply, mulf_apply, mulf_apply, matmul_QK_apply, broadcast_apply, shapeCast_self, shapeCast_1ab_ab_apply]
  simp only [shapeCast_1ab_ab_apply]
  rfl

/-- The payload at any block index, the index split into its coordinates. -/
theorem pay_apply_idx (x0 : Vec Ideal S1x512x64 .bf16) (x1 x2 : Vec Ideal S1x2048x64 .bf16) (x3 : Vec Ideal S512x2048 .f32)
    (y : S1x512x64.Idx) :
    k3_pay1 (F := Ideal) x0 x1 x2 x3 y
      = ∑ k : Fin 2048, (((∑ j : Fin 64, x0 (ix3 (0 : Fin 1) (y 1) j) * x1 (ix3 (0 : Fin 1) k j)) * Cert.Spec.eighth) * x3 (ix2 (y 1) k)) * x2 (ix3 (0 : Fin 1) k (y 2)) := by
  obtain ⟨u, q, d, rfl⟩ : ∃ (u : Fin 1) (q : Fin 512) (d : Fin 64), y = ix3 u q d := ⟨y 0, y 1, y 2, eq_ix3 y⟩
  exact pay_apply x0 x1 x2 x3 u q d

/-- ONE POINT'S BLOCK: when the four loaded blocks are the rows of the four arrays that group g and query tile i name,
    the payload at block index y is the attention at the array index e that y names in that tile. -/
theorem block_eq (Q K W : S32x2048x64.Idx → EReal) (M : S2048x2048.Idx → EReal)
    (x0 : Vec Ideal S1x512x64 .bf16) (x1 x2 : Vec Ideal S1x2048x64 .bf16) (x3 : Vec Ideal S512x2048 .f32)
    (y : S1x512x64.Idx) (e : S32x2048x64.Idx) (he2 : (e 2).val = (y 2).val)
    (h0 : ∀ j : Fin 64, x0 (ix3 (0 : Fin 1) (y 1) j) = Q (ix3 (e 0) (e 1) j))
    (h1 : ∀ (k : Fin 2048) (j : Fin 64), x1 (ix3 (0 : Fin 1) k j) = K (ix3 (e 0) k j))
    (h2 : ∀ (k : Fin 2048) (d : Fin 64), x2 (ix3 (0 : Fin 1) k d) = W (ix3 (e 0) k d))
    (h3 : ∀ k : Fin 2048, x3 (ix2 (y 1) k) = M (ix2 (e 1) k)) :
    k3_pay1 (F := Ideal) x0 x1 x2 x3 y = Cert.Spec.attn Q K W M e := by
  rw [pay_apply_idx]
  show _ = Cert.Spec.attnAt Q K W M (e 0) (e 1) (e 2)
  unfold Cert.Spec.attnAt
  have hd : (y 2 : Fin 64) = e 2 := Fin.ext he2.symm
  refine Finset.sum_congr rfl fun k _ => ?_
  rw [h3 k, h2 k (y 2), hd]
  congr 3
  refine Finset.sum_congr rfl fun j _ => ?_
  rw [h0 j, h1 k j]

/-! ## From blocks to the array -/

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided over the grid: point t is query tile t / 32 of group t % 32; the query and output
    blocks sit at (group, tile, 0), the key and value blocks at (group, 0, 0), the mask block at (tile, 0). -/
theorem idx_facts : ∀ t : Fin cfg3.N,
    win3_4.index t (0 : Fin 3) = t.val % 32 ∧ win3_4.index t (1 : Fin 3) = t.val / 32 ∧ win3_4.index t (2 : Fin 3) = 0
    ∧ win3_0.index t (0 : Fin 3) = t.val % 32 ∧ win3_0.index t (1 : Fin 3) = t.val / 32 ∧ win3_0.index t (2 : Fin 3) = 0
    ∧ win3_1.index t (0 : Fin 3) = t.val % 32 ∧ win3_1.index t (1 : Fin 3) = 0 ∧ win3_1.index t (2 : Fin 3) = 0
    ∧ win3_2.index t (0 : Fin 3) = t.val % 32 ∧ win3_2.index t (1 : Fin 3) = 0 ∧ win3_2.index t (2 : Fin 3) = 0
    ∧ win3_3.index t (0 : Fin 2) = t.val / 32 ∧ win3_3.index t (1 : Fin 2) = 0 :=
  (by decide +kernel : ∀ t : Fin grid3.N, _)

/-- The query block at point t is rows 512 (t / 32) … of group t % 32 of the query array. -/
theorem iblk_Q_apply (c : Dev nD) (t : Fin cfg3.N) (x : S1x512x64.Idx) (k : S32x2048x64.Idx)
    (hk0 : (k 0).val = t.val % 32) (hk1 : (k 1).val = (t.val / 32) * 512 + (x 1).val) (hk2 : (k 2).val = (x 2).val) :
    (iblk3 V c 0 t : Vec Ideal S1x512x64 .bf16) x = (V c main_v14 : S32x2048x64.Idx → EReal) k := by
  obtain ⟨-, -, -, e0, e1, e2, -⟩ := idx_facts t
  unfold iblk3
  rw [View.read_apply]
  show V c main_v14 _ = V c main_v14 _
  congr 1
  funext a
  apply Fin.ext
  have hx0 : (x 0).val < 1 := (x 0).isLt
  match a with
  | ⟨0, _⟩ => show win3_0.index t (0 : Fin 3) * 1 + 1 * (x 0).val = (k 0).val; omega
  | ⟨1, _⟩ => show win3_0.index t (1 : Fin 3) * 512 + 1 * (x 1).val = (k 1).val; omega
  | ⟨2, _⟩ => show win3_0.index t (2 : Fin 3) * 64 + 1 * (x 2).val = (k 2).val; omega

/-- The key block at point t is all rows of group t % 32 of the key array. -/
theorem iblk_K_apply (c : Dev nD) (t : Fin cfg3.N) (x : S1x2048x64.Idx) (k : S32x2048x64.Idx)
    (hk0 : (k 0).val = t.val % 32) (hk1 : (k 1).val = (x 1).val) (hk2 : (k 2).val = (x 2).val) :
    (iblk3 V c 1 t : Vec Ideal S1x2048x64 .bf16) x = (V c main_v17 : S32x2048x64.Idx → EReal) k := by
  obtain ⟨-, -, -, -, -, -, e0, e1, e2, -⟩ := idx_facts t
  unfold iblk3
  rw [View.read_apply]
  show V c main_v17 _ = V c main_v17 _
  congr 1
  funext a
  apply Fin.ext
  have hx0 : (x 0).val < 1 := (x 0).isLt
  match a with
  | ⟨0, _⟩ => show win3_1.index t (0 : Fin 3) * 1 + 1 * (x 0).val = (k 0).val; omega
  | ⟨1, _⟩ => show win3_1.index t (1 : Fin 3) * 2048 + 1 * (x 1).val = (k 1).val; omega
  | ⟨2, _⟩ => show win3_1.index t (2 : Fin 3) * 64 + 1 * (x 2).val = (k 2).val; omega

/-- The value block at point t is all rows of group t % 32 of the value array. -/
theorem iblk_V_apply (c : Dev nD) (t : Fin cfg3.N) (x : S1x2048x64.Idx) (k : S32x2048x64.Idx)
    (hk0 : (k 0).val = t.val % 32) (hk1 : (k 1).val = (x 1).val) (hk2 : (k 2).val = (x 2).val) :
    (iblk3 V c 2 t : Vec Ideal S1x2048x64 .bf16) x = (V c main_v20 : S32x2048x64.Idx → EReal) k := by
  obtain ⟨-, -, -, -, -, -, -, -, -, e0, e1, e2, -⟩ := idx_facts t
  unfold iblk3
  rw [View.read_apply]
  show V c main_v20 _ = V c main_v20 _
  congr 1
  funext a
  apply Fin.ext
  have hx0 : (x 0).val < 1 := (x 0).isLt
  match a with
  | ⟨0, _⟩ => show win3_2.index t (0 : Fin 3) * 1 + 1 * (x 0).val = (k 0).val; omega
  | ⟨1, _⟩ => show win3_2.index t (1 : Fin 3) * 2048 + 1 * (x 1).val = (k 1).val; omega
  | ⟨2, _⟩ => show win3_2.index t (2 : Fin 3) * 64 + 1 * (x 2).val = (k 2).val; omega

/-- The mask block at point t is rows 512 (t / 32) … of the mask, all columns. -/
theorem iblk_M_apply (c : Dev nD) (t : Fin cfg3.N) (x : S512x2048.Idx) (k : S2048x2048.Idx)
    (hk0 : (k 0).val = (t.val / 32) * 512 + (x 0).val) (hk1 : (k 1).val = (x 1).val) :
    (iblk3 V c 3 t : Vec Ideal S512x2048 .f32) x = (V c main_v21 : S2048x2048.Idx → EReal) k := by
  obtain ⟨-, -, -, -, -, -, -, -, -, -, -, -, e0, e1⟩ := idx_facts t
  unfold iblk3
  rw [View.read_apply]
  show V c main_v21 _ = V c main_v21 _
  congr 1
  funext a
  apply Fin.ext
  match a with
  | ⟨0, _⟩ => show win3_3.index t (0 : Fin 2) * 512 + 1 * (x 0).val = (k 0).val; omega
  | ⟨1, _⟩ => show win3_3.index t (1 : Fin 2) * 2048 + 1 * (x 1).val = (k 1).val; omega

/-- WHAT POINT t WRITES BACK is block t of the attention of the four arrays as the region finds them. -/
theorem flushed_eq (c : Dev nD) (t : Fin cfg3.N) :
    (dat3 V c).flushed 4 t = ((cfg3.win 4).blk t).view.read (Elt Ideal)
      (Cert.Spec.attn (V c main_v14) (V c main_v17) (V c main_v20) (V c main_v21)) := by
  show (cfg3.win 4).cut (grid3.coords t) ((dat3 V c).after 4 t) = _
  rw [after3_4]
  unfold out3_4
  rw [View.canon_unit_zero hz3]
  simp only [View.ld_unit_zero (S := S1x512x64) hz3, View.ld_unit_zero (S := S1x2048x64) hz3, View.ld_unit_zero (S := S512x2048) hz2]
  obtain ⟨o0, o1, o2, -⟩ := idx_facts t
  funext j
  have hj0 : (j 0).val < 1 := (j 0).isLt
  have e0 : ((((cfg3.win 4).blk t).view.emb j) 0).val = t.val % 32 := by
    show win3_4.index t (0 : Fin 3) * 1 + 1 * (j 0).val = _; omega
  have e1 : ((((cfg3.win 4).blk t).view.emb j) 1).val = (t.val / 32) * 512 + (j 1).val := by
    show win3_4.index t (1 : Fin 3) * 512 + 1 * (j 1).val = _; omega
  have e2 : ((((cfg3.win 4).blk t).view.emb j) 2).val = (j 2).val := by
    show win3_4.index t (2 : Fin 3) * 64 + 1 * (j 2).val = _; omega
  refine block_eq (V c main_v14) (V c main_v17) (V c main_v20) (V c main_v21)
    (iblk3 V c 0 t) (iblk3 V c 1 t) (iblk3 V c 2 t) (iblk3 V c 3 t) ((cfg3.win 4).xinj (grid3.coords t) j)
    (((cfg3.win 4).blk t).view.emb j) e2 (fun jj => ?_) (fun k jj => ?_) (fun k d => ?_) (fun k => ?_)
  · exact iblk_Q_apply V c t _ _ e0 e1 rfl
  · exact iblk_K_apply V c t _ _ e0 rfl rfl
  · exact iblk_V_apply V c t _ _ e0 rfl rfl
  · exact iblk_M_apply V c t _ _ e1 rfl

/-- An index of the output array is in point t's block iff each coordinate is in the block's range on its axis. -/
theorem mem_blk (t : Fin cfg3.N) (i : S32x2048x64.Idx) :
    i ∈ ((cfg3.win 4).blk t).view.set ↔ ∀ a : Fin 3, win3_4.index t a * S1x512x64.size a ≤ (i a).val ∧ (i a).val < win3_4.index t a * S1x512x64.size a + S1x512x64.size a := by
  show i ∈ ((View.whole main_v22).slice (win3_4.rect t)).set ↔ _
  rw [View.set_slice_whole, Rect.mem_set_unit]
  exact Iff.rfl

/-- Every index (g, r, d) of the output array is in the block of the point of query tile r / 512 and group g. -/
theorem cover (i : S32x2048x64.Idx) :
    ∃ t : Fin cfg3.N, (cfg3.win 4).flush t = true ∧ i ∈ ((cfg3.win 4).blk t).view.set := by
  have hi0 : (i 0).val < 32 := (i 0).isLt
  have hi1 : (i 1).val < 2048 := (i 1).isLt
  have hi2 : (i 2).val < 64 := (i 2).isLt
  have hN : cfg3.N = 128 := N_3
  obtain ⟨t, ht⟩ : ∃ t : Fin cfg3.N, t.val = ((i 1).val / 512) * 32 + (i 0).val :=
    ⟨⟨((i 1).val / 512) * 32 + (i 0).val, lt_of_lt_of_eq (by omega) hN.symm⟩, rfl⟩
  obtain ⟨o0, o1, o2, -⟩ := idx_facts t
  refine ⟨t, flush3_4 t, ?_⟩
  rw [mem_blk]
  intro a
  match a with
  | ⟨0, _⟩ => show win3_4.index t (0 : Fin 3) * 1 ≤ (i 0).val ∧ (i 0).val < win3_4.index t (0 : Fin 3) * 1 + 1; omega
  | ⟨1, _⟩ => show win3_4.index t (1 : Fin 3) * 512 ≤ (i 1).val ∧ (i 1).val < win3_4.index t (1 : Fin 3) * 512 + 512; omega
  | ⟨2, _⟩ => show win3_4.index t (2 : Fin 3) * 64 ≤ (i 2).val ∧ (i 2).val < win3_4.index t (2 : Fin 3) * 64 + 64; omega

/-- Region 3 (the attention): after the region its output array is the masked, unnormalised attention of the four arrays
    the region found on entry. -/
theorem region3 (c : Dev nD) : (dat3 V c).arrAt 4 cfg3.N = Cert.Spec.attn (V c main_v14) (V c main_v17) (V c main_v20) (V c main_v21) :=
  (dat3 V c).arrAt_eq_of_cover 4 (Cert.Spec.attn (V c main_v14) (V c main_v17) (V c main_v20) (V c main_v21))
    (fun t _ => flushed_eq V c t) cover

end Cert.KernelIdeal.RegionValue

end
-- ==== Proof.KWalk.lean ====
/-
  What the kernel program's result buffer holds after the run, read back through the run's eleven boundaries: the last
  host stretch unflattens the output projection's rows; that region's three arrays are the merged attention result, the
  transposed output weight and the output bias; the attention region's four arrays are the three projections split into
  heads and the transposed mask; each projection region's arrays are the flattened input, the transposed weight and the
  bias. A buffer no later stretch or region writes keeps its contents from boundary to boundary.
-/
import proofs.«112309_j91336774517485_1_alg».proof.Proof.Gen.KernelIdeal.Frame
import proofs.«112309_j91336774517485_1_alg».proof.Proof.KTerm
import proofs.«112309_j91336774517485_1_alg».proof.Proof.RegionLin
import proofs.«112309_j91336774517485_1_alg».proof.Proof.RegionAttn
import Idealize.ShloMosaic.Lib.StableHlo.Run

set_option maxRecDepth 16384

noncomputable section

namespace Cert.KernelIdeal.Walk

open Cert.KernelIdeal Cert.KernelIdeal.Gen Cert.KernelIdeal.RegionValue Cert.KernelIdeal.Term
open Idealize.ShloMosaic Idealize.ShloMosaic.TcCoe Idealize.SL.Sem Idealize.ShloMosaic.StableHlo

variable (m : (ℓ : Loc nD τ sig) → Buf (Elt Ideal) ℓ) (ρ : Dev nD → PrngReg)

/-- A buffer's contents carried back across boundaries that do not write it: a region leaves every buffer that is not one
    of its arrays as it found it, a host stretch every buffer none of its operations writes. -/
macro "carry_back" : tactic =>
  `(tactic| repeat (first
      | rfl
      | (rw [W10_of_ne]; rotate_left; decide)
      | (rw [W8_of_ne]; rotate_left; decide)
      | (rw [W6_of_ne]; rotate_left; decide)
      | (rw [W4_of_ne]; rotate_left; decide)
      | (rw [W2_of_ne]; rotate_left; decide)
      | (show StableHlo.after _ _ _ = _; after_results)))

/-! ## The projections' operands (boundaries 1, 3, 5) -/

theorem q_rows (c : Dev nD) : W1 m ρ c (Proc.devRef .tc main_v0) = rows (m ((c : Thread nD τ).loc main_arg0)) := by
  show StableHlo.after hostOps0 _ (Proc.devRef .tc main_v0) = _
  after_results
  try rfl
theorem q_weight (c : Dev nD) : W1 m ρ c (Proc.devRef .tc main_v4) = wt (m ((c : Thread nD τ).loc main_arg4)) := by
  show StableHlo.after hostOps0 _ (Proc.devRef .tc main_v4) = _
  after_results
  try rfl
theorem q_bias (c : Dev nD) : W1 m ρ c (Proc.devRef .tc main_arg5) = m ((c : Thread nD τ).loc main_arg5) := by
  carry_back

theorem k_rows (c : Dev nD) : W3 m ρ c (Proc.devRef .tc main_v1) = rows (m ((c : Thread nD τ).loc main_arg1)) := by
  have h : W3 m ρ c (Proc.devRef .tc main_v1) = W1 m ρ c (Proc.devRef .tc main_v1) := by carry_back
  rw [h]
  show StableHlo.after hostOps0 _ (Proc.devRef .tc main_v1) = _
  after_results
  try rfl
theorem k_weight (c : Dev nD) : W3 m ρ c (Proc.devRef .tc main_v7) = wt (m ((c : Thread nD τ).loc main_arg6)) := by
  have h : W2 m ρ c (Proc.devRef .tc main_arg6) = m ((c : Thread nD τ).loc main_arg6) := by carry_back
  show StableHlo.after hostOps1 _ (Proc.devRef .tc main_v7) = _
  after_results
  rw [h]
  try rfl
theorem k_bias (c : Dev nD) : W3 m ρ c (Proc.devRef .tc main_arg7) = m ((c : Thread nD τ).loc main_arg7) := by
  carry_back

theorem v_rows (c : Dev nD) : W5 m ρ c (Proc.devRef .tc main_v2) = rows (m ((c : Thread nD τ).loc main_arg2)) := by
  have h : W5 m ρ c (Proc.devRef .tc main_v2) = W1 m ρ c (Proc.devRef .tc main_v2) := by carry_back
  rw [h]
  show StableHlo.after hostOps0 _ (Proc.devRef .tc main_v2) = _
  after_results
  try rfl
theorem v_weight (c : Dev nD) : W5 m ρ c (Proc.devRef .tc main_v10) = wt (m ((c : Thread nD τ).loc main_arg8)) := by
  have h : W4 m ρ c (Proc.devRef .tc main_arg8) = m ((c : Thread nD τ).loc main_arg8) := by carry_back
  show StableHlo.after hostOps2 _ (Proc.devRef .tc main_v10) = _
  after_results
  rw [h]
  try rfl
theorem v_bias (c : Dev nD) : W5 m ρ c (Proc.devRef .tc main_arg9) = m ((c : Thread nD τ).loc main_arg9) := by
  carry_back

/-! ## The three projections (boundaries 2, 4, 6), carried to the attention's entry (boundary 6) -/

theorem q_proj (c : Dev nD) : W6 m ρ c (Proc.devRef .tc main_v5)
    = Cert.Spec.lin (rows (m ((c : Thread nD τ).loc main_arg0))) (wt (m ((c : Thread nD τ).loc main_arg4))) (m ((c : Thread nD τ).loc main_arg5)) := by
  have h : W6 m ρ c (Proc.devRef .tc main_v5) = W2 m ρ c (Proc.devRef .tc main_v5) := by carry_back
  rw [h]
  refine (W2_arr m ρ c 3).trans ?_
  rw [region0 (V1 m ρ) c]
  show Cert.Spec.lin (W1 m ρ c (Proc.devRef .tc main_v0)) (W1 m ρ c (Proc.devRef .tc main_v4)) (W1 m ρ c (Proc.devRef .tc main_arg5)) = _
  rw [q_rows, q_weight, q_bias]
theorem k_proj (c : Dev nD) : W6 m ρ c (Proc.devRef .tc main_v8)
    = Cert.Spec.lin (rows (m ((c : Thread nD τ).loc main_arg1))) (wt (m ((c : Thread nD τ).loc main_arg6))) (m ((c : Thread nD τ).loc main_arg7)) := by
  have h : W6 m ρ c (Proc.devRef .tc main_v8) = W4 m ρ c (Proc.devRef .tc main_v8) := by carry_back
  rw [h]
  refine (W4_arr m ρ c 3).trans ?_
  rw [region1 (V3 m ρ) c]
  show Cert.Spec.lin (W3 m ρ c (Proc.devRef .tc main_v1)) (W3 m ρ c (Proc.devRef .tc main_v7)) (W3 m ρ c (Proc.devRef .tc main_arg7)) = _
  rw [k_rows, k_weight, k_bias]
theorem v_proj (c : Dev nD) : W6 m ρ c (Proc.devRef .tc main_v11)
    = Cert.Spec.lin (rows (m ((c : Thread nD τ).loc main_arg2))) (wt (m ((c : Thread nD τ).loc main_arg8))) (m ((c : Thread nD τ).loc main_arg9)) := by
  refine (W6_arr m ρ c 3).trans ?_
  rw [region2 (V5 m ρ) c]
  show Cert.Spec.lin (W5 m ρ c (Proc.devRef .tc main_v2)) (W5 m ρ c (Proc.devRef .tc main_v10)) (W5 m ρ c (Proc.devRef .tc main_arg9)) = _
  rw [v_rows, v_weight, v_bias]

/-! ## The attention's operands (boundary 7) and its result (boundary 8) -/

theorem q_heads (c : Dev nD) : W7 m ρ c (Proc.devRef .tc main_v14) = heads (W6 m ρ c (Proc.devRef .tc main_v5)) := by
  show StableHlo.after hostOps3 _ (Proc.devRef .tc main_v14) = _
  after_results
  try rfl
theorem k_heads (c : Dev nD) : W7 m ρ c (Proc.devRef .tc main_v17) = heads (W6 m ρ c (Proc.devRef .tc main_v8)) := by
  show StableHlo.after hostOps3 _ (Proc.devRef .tc main_v17) = _
  after_results
  try rfl
theorem v_heads (c : Dev nD) : W7 m ρ c (Proc.devRef .tc main_v20) = heads (W6 m ρ c (Proc.devRef .tc main_v11)) := by
  show StableHlo.after hostOps3 _ (Proc.devRef .tc main_v20) = _
  after_results
  try rfl
theorem mask_t (c : Dev nD) : W7 m ρ c (Proc.devRef .tc main_v21) = maskT (m ((c : Thread nD τ).loc main_arg3)) := by
  have h : W6 m ρ c (Proc.devRef .tc main_arg3) = m ((c : Thread nD τ).loc main_arg3) := by carry_back
  show StableHlo.after hostOps3 _ (Proc.devRef .tc main_v21) = _
  after_results
  rw [h]
  try rfl

theorem attn_out (c : Dev nD) : W8 m ρ c (Proc.devRef .tc main_v22)
    = Cert.Spec.attn (heads (W6 m ρ c (Proc.devRef .tc main_v5))) (heads (W6 m ρ c (Proc.devRef .tc main_v8)))
        (heads (W6 m ρ c (Proc.devRef .tc main_v11))) (maskT (m ((c : Thread nD τ).loc main_arg3))) := by
  refine (W8_arr m ρ c 4).trans ?_
  rw [region3 (V7 m ρ) c]
  show Cert.Spec.attn (W7 m ρ c (Proc.devRef .tc main_v14)) (W7 m ρ c (Proc.devRef .tc main_v17)) (W7 m ρ c (Proc.devRef .tc main_v20))
    (W7 m ρ c (Proc.devRef .tc main_v21)) = _
  rw [q_heads, k_heads, v_heads, mask_t]

/-! ## The output projection's operands (boundary 9), its result (boundary 10) and the program's result (boundary 11) -/

theorem o_rows (c : Dev nD) : W9 m ρ c (Proc.devRef .tc main_v25) = merge (W8 m ρ c (Proc.devRef .tc main_v22)) := by
  show StableHlo.after hostOps4 _ (Proc.devRef .tc main_v25) = _
  after_results
  try rfl
theorem o_weight (c : Dev nD) : W9 m ρ c (Proc.devRef .tc main_v27) = wt (m ((c : Thread nD τ).loc main_arg10)) := by
  have h : W8 m ρ c (Proc.devRef .tc main_arg10) = m ((c : Thread nD τ).loc main_arg10) := by carry_back
  show StableHlo.after hostOps4 _ (Proc.devRef .tc main_v27) = _
  after_results
  rw [h]
  try rfl
theorem o_bias (c : Dev nD) : W9 m ρ c (Proc.devRef .tc main_arg11) = m ((c : Thread nD τ).loc main_arg11) := by
  carry_back

theorem o_proj (c : Dev nD) : W10 m ρ c (Proc.devRef .tc main_v28)
    = Cert.Spec.lin (merge (W8 m ρ c (Proc.devRef .tc main_v22))) (wt (m ((c : Thread nD τ).loc main_arg10))) (m ((c : Thread nD τ).loc main_arg11)) := by
  refine (W10_arr m ρ c 3).trans ?_
  rw [region4 (V9 m ρ) c]
  show Cert.Spec.lin (W9 m ρ c (Proc.devRef .tc main_v25)) (W9 m ρ c (Proc.devRef .tc main_v27)) (W9 m ρ c (Proc.devRef .tc main_arg11)) = _
  rw [o_rows, o_weight, o_bias]

/-- The result buffer at the last boundary is the program's result function of the twelve arguments as launched. -/
theorem result_eq (c : Dev nD) : W11 m ρ c (Proc.devRef .tc main_v29)
    = kernelResult (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11)) := by
  have h : W11 m ρ c (Proc.devRef .tc main_v29)
      = shapeCast S2x2048x1024 (W10 m ρ c (Proc.devRef .tc main_v28)) shapeCasts_S4096x1024_S2x2048x1024 := by
    show StableHlo.after hostOps5 _ (Proc.devRef .tc main_v29) = _
    after_results
    try rfl
  rw [h, o_proj, attn_out, q_proj, k_proj, v_proj]
  rfl

end Cert.KernelIdeal.Walk

end
-- ==== Proof.lean ====
/-
  The certificate: a multi-head attention without softmax, computed by five kernel regions (three input projections, the
  masked attention over 32 (batch, head) groups, the output projection) among reshapes and transposes, against the same
  computation written as einsums.

  Over the extended reals both programs compute, at batch b, position s and output column e,
      Σ_j x[b,s,j] · Wo[e,j] + bo[e],   x[b,s,64·h+d] = Σ_k ((Σ_i Q[b,h,s,i] · K[b,h,k,i]) · 1/8 · A[k,s]) · V[b,h,k,d],
  with Q, K, V the projections x · Wᵀ + b of the three inputs split into 16 heads of width 64. The kernel carries the
  scale as the constant 1/8, the reference as 1/√64: the same extended real. Every sum on one side is the same sum on the
  other, only indexed through different reshapes; nothing is redistributed, so the inputs' finiteness is not used.

  The kernel program's frames are its launch over the eleven segments of its main function; its value is that launch's
  last boundary read back region by region (each region's output array is its linear layer, or its attention, of the
  arrays it found on entry). The reference's frame and value are its run as a line of host operations.
-/
import proofs.«112309_j91336774517485_1_alg».proof.Defs
import proofs.«112309_j91336774517485_1_alg».proof.Proof.Gen.Kernel
import proofs.«112309_j91336774517485_1_alg».proof.Proof.Gen.Kernel.Frame
import proofs.«112309_j91336774517485_1_alg».proof.Proof.Gen.KernelIdeal
import proofs.«112309_j91336774517485_1_alg».proof.Proof.Gen.KernelIdeal.Frame
import proofs.«112309_j91336774517485_1_alg».proof.Proof.Gen.ReferenceIdeal
import proofs.«112309_j91336774517485_1_alg».proof.Proof.Gen.ReferenceIdeal.Run
import proofs.«112309_j91336774517485_1_alg».proof.Proof.Gen.Pre_finite_inputs
import proofs.«112309_j91336774517485_1_alg».proof.Proof.KRun
import proofs.«112309_j91336774517485_1_alg».proof.Proof.Bridge
import proofs.«112309_j91336774517485_1_alg».proof.Proof.KWalk
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ
/-- So does the kernel program read over the extended reals. -/
theorem frame_kernelIdeal : Cert.frame_KernelIdeal := fun m ρ _ => Cert.KernelIdeal.Gen.frame m ρ
/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Over the extended reals both programs end with the result array at ONE function of the twelve arguments: the kernel
    program at its result function (the run read back through its five regions), the reference at its composed host
    term, and the two are equal; no law beyond re-indexing the same sums is used, so finiteness of the inputs is not. -/
theorem algebraic : Cert.algebraic_KernelIdeal_ReferenceIdeal := by
  intro m ρ m' ρ' _ hagree
  refine ⟨fun c => Cert.KernelIdeal.Term.kernelResult
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.Walk.result_eq m ρ c), (h c).2⟩)
      (Cert.KernelIdeal.Gen.Result.run_result m ρ)
  · refine (θ_run Cert.ReferenceIdeal.defs _ _).mono (fun r h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]
    exact (Cert.Bridge.kernel_eq_ref _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
